-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1000000 : Shape := ⟨2, ![2, 1000000]⟩
abbrev S64x64 : Shape := ⟨2, ![64, 64]⟩
abbrev S64 : Shape := ⟨1, ![64]⟩
abbrev S128x64 : Shape := ⟨2, ![128, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S2x1000000 : S_.BroadcastsInDim S2x1000000 (![] : Fin 0 → Fin S2x1000000.rank)
  reducesTo_S2x1000000_S_d0_1 : S2x1000000.ReducesTo [0, 1] S_

variable [Facts]

def fn_part2 {F : FTy → Type} [FloatOps F] (main_arg1 : IVec S2x1000000 32) (main_v32 : IVec S_ 1) (main_c_12 : IVec S_ 32) : IVec S_ 1 :=
  let main_v33 : IVec S2x1000000 32 := broadcastInDim S2x1000000 ![] bcast_S_S2x1000000 main_c_12
  let main_v34 : IVec S2x1000000 1 := cmpi .slt main_arg1 main_v33
  let main_c_13 : IVec S_ 1 := constantI S_ 1 1#1
  let main_v35 : IVec S_ 1 := (fun x v => Host.reduce IntOp.andi x v reducesTo_S2x1000000_S_d0_1 h_S_) main_v34 main_c_13
  let main_v36 : IVec S_ 1 := andi main_v32 main_v35
  main_v36

def fn_part1 {F : FTy → Type} [FloatOps F] (main_arg1 : IVec S2x1000000 32) (main_arg5 : FVec F S128x64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_c_10 : IVec S_ 32 := constantI S_ 32 0#32
  let main_v29 : IVec S2x1000000 32 := broadcastInDim S2x1000000 ![] bcast_S_S2x1000000 main_c_10
  let main_v30 : IVec S2x1000000 1 := cmpi .sge main_arg1 main_v29
  let main_c_11 : IVec S_ 1 := constantI S_ 1 1#1
  let main_v31 : IVec S_ 1 := (fun x v => Host.reduce IntOp.andi x v reducesTo_S2x1000000_S_d0_1 h_S_) main_v30 main_c_11
  let main_v32 : IVec S_ 1 := andi main_v28 main_v31
  let main_c_12 : IVec S_ 32 := constantI S_ 32 50000#32
  fn_part2 (F := F) main_arg1 main_v32 main_c_12

def fn {F : FTy → Type} [FloatOps F] (main_arg0 : FVec F S50000x64 .f32) (main_arg1 : IVec S2x1000000 32) (main_arg2 : FVec F S64x64 .f32) (main_arg3 : FVec F S64x64 .f32) (main_arg4 : FVec F S64 .f32) (main_arg5 : FVec F S128x64 .f32) (main_arg6 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_v13 main_v16
-- ==== Kernel.lean ====
abbrev S50000x64 : Shape := ⟨2, ![50000, 64]⟩
abbrev S2x1000000 : Shape := ⟨2, ![2, 1000000]⟩
abbrev S64x64 : Shape := ⟨2, ![64, 64]⟩
abbrev S64 : Shape := ⟨1, ![64]⟩
abbrev S128x64 : Shape := ⟨2, ![128, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1 : Shape := ⟨1, ![1]⟩
abbrev S1x1 : Shape := ⟨2, ![1, 1]⟩
abbrev S1000000x64 : Shape := ⟨2, ![1000000, 64]⟩
abbrev S50000x1 : Shape := ⟨2, ![50000, 1]⟩
abbrev S1x64 : Shape := ⟨2, ![1, 64]⟩
abbrev S5000x64 : Shape := ⟨2, ![5000, 64]⟩
abbrev S25000x128 : Shape := ⟨2, ![25000, 128]⟩
abbrev S5000x128 : Shape := ⟨2, ![5000, 128]⟩

abbrev nBuf : Space → Nat
  | .hbm => 124
  | .vmem => 19
  | .smem => 0
  | _ => 0

abbrev bufTy : (tb : Table) → Fin (tcTables nBuf tb) → BufTy
  | .hbm, ⟨0, _⟩ => ⟨S50000x64, .f32⟩
  | .hbm, ⟨1, _⟩ => ⟨S2x1000000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S1x1000000, .i32⟩
  | .hbm, ⟨8, _⟩ => ⟨S1000000, .i32⟩
  | .hbm, ⟨9, _⟩ => ⟨S1x1000000, .i32⟩
  | .hbm, ⟨10, _⟩ => ⟨S1000000, .i32⟩
  | .hbm, ⟨11, _⟩ => ⟨S_, .i32⟩
  | .hbm, ⟨12, _⟩ => ⟨S1000000, .i32⟩
  | .hbm, ⟨13, _⟩ => ⟨S1000000, .i1⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S1000000, .i32⟩
  | .hbm, ⟨18, _⟩ => ⟨S1000000x1, .i32⟩
  | .hbm, ⟨19, _⟩ => ⟨S1, .i32⟩
  | .hbm, ⟨20, _⟩ => ⟨S_, .i32⟩
  | .hbm, ⟨21, _⟩ => ⟨S1000000x1, .i32⟩
  | .hbm, ⟨22, _⟩ => ⟨S1000000x1, .i1⟩
  | .hbm, ⟨23, _⟩ => ⟨S1x1, .i32⟩
  | .hbm, ⟨24, _⟩ => ⟨S1000000x1, .i32⟩
  | .hbm, ⟨25, _⟩ => ⟨S1000000x1, .i1⟩
  | .hbm, ⟨26, _⟩ => ⟨S1000000x1, .i1⟩
  | .hbm, ⟨27, _⟩ => ⟨S_, .i1⟩
  | .hbm, ⟨28, _⟩ => ⟨S1000000, .i1⟩
  | .hbm, ⟨29, _⟩ => ⟨S1000000x64, .f32⟩
  | .hbm, ⟨30, _⟩ => ⟨S1000000x64, .i1⟩
  | .hbm, ⟨31, _⟩ => ⟨S_, .f32⟩
  | .hbm, ⟨32, _⟩ => ⟨S1000000x64, .f32⟩
  | .hbm, ⟨33, _⟩ => ⟨S1000000x64, .f32⟩
  | .hbm, ⟨34, _⟩ => ⟨S_, .f32⟩
  | .hbm, ⟨35, _⟩ => ⟨S50000x64, .f32⟩
  | .hbm, ⟨36, _⟩ => ⟨S1000000x1, .i32⟩
  | .hbm, ⟨37, _⟩ => ⟨S50000x64, .f32⟩
  | .hbm, ⟨38, _⟩ => ⟨S_, .f32⟩
  | .hbm, ⟨39, _⟩ => ⟨S1000000x1, .f32⟩
  | .hbm, ⟨40, _⟩ => ⟨S_, .f32⟩
  | .hbm, ⟨41, _⟩ => ⟨S50000x1, .f32⟩
  | .hbm, ⟨42, _⟩ => ⟨S1000000x1, .i32⟩
  | .hbm, ⟨43, _⟩ => ⟨S50000x1, .f32⟩
  | .hbm, ⟨44, _⟩ => ⟨S_, .f32⟩
  | .hbm, ⟨45, _⟩ => ⟨S50000x1, .f32⟩
  | .hbm, ⟨46, _⟩ => ⟨S50000x1, .f32⟩
  | .hbm, ⟨47, _⟩ => ⟨S50000x64, .f32⟩
  | .hbm, ⟨48, _⟩ => ⟨S50000x64, .f32⟩
  | .hbm, ⟨49, _⟩ => ⟨S64x64, .f32⟩
  | .hbm, ⟨50, _⟩ => ⟨S64x64, .f32⟩
  | .hbm, ⟨51, _⟩ => ⟨S1x64, .f32⟩
  | .hbm, ⟨52, _⟩ => ⟨S50000x64, .f32⟩
  | .hbm, ⟨53, _⟩ => ⟨S50000x64, .f32⟩
  | .hbm, ⟨54, _⟩ => ⟨S50000x64, .f32⟩
  | .hbm, ⟨55, _⟩ => ⟨S_, .i32⟩
  | .hbm, ⟨56, _⟩ => ⟨S1000000, .i32⟩
  | .hbm, ⟨57, _⟩ => ⟨S1000000, .i1⟩
  | .hbm, ⟨58, _⟩ => ⟨S_, .i32⟩
  | .hbm, ⟨59, _⟩ => ⟨S1000000, .i32⟩
  | .hbm, ⟨60, _⟩ => ⟨S1000000, .i32⟩
  | .hbm, ⟨61, _⟩ => ⟨S1000000, .i32⟩
  | .hbm, ⟨62, _⟩ => ⟨S1000000x1, .i32⟩
  | .hbm, ⟨63, _⟩ => ⟨S1, .i32⟩
  | .hbm, ⟨64, _⟩ => ⟨S_, .i32⟩
  | .hbm, ⟨65, _⟩ => ⟨S1000000x1, .i32⟩
  | .hbm, ⟨66, _⟩ => ⟨S1000000x1, .i1⟩
  | .hbm, ⟨67, _⟩ => ⟨S1x1, .i32⟩
  | .hbm, ⟨68, _⟩ => ⟨S1000000x1, .i32⟩
  | .hbm, ⟨69, _⟩ => ⟨S1000000x1, .i1⟩
  | .hbm, ⟨70, _⟩ => ⟨S1000000x1, .i1⟩
  | .hbm, ⟨71, _⟩ => ⟨S_, .i1⟩
  | .hbm, ⟨72, _⟩ => ⟨S1000000, .i1⟩
  | .hbm, ⟨73, _⟩ => ⟨S1000000x64, .f32⟩
  | .hbm, ⟨74, _⟩ => ⟨S1000000x64, .i1⟩
  | .hbm, ⟨75, _⟩ => ⟨S_, .f32⟩
  | .hbm, ⟨76, _⟩ => ⟨S1000000x64, .f32⟩
  | .hbm, ⟨77, _⟩ => ⟨S1000000x64, .f32⟩
  | .hbm, ⟨78, _⟩ => ⟨S_, .i32⟩
  | .hbm, ⟨79, _⟩ => ⟨S1000000, .i32⟩
  | .hbm, ⟨80, _⟩ => ⟨S1000000, .i1⟩
  | .hbm, ⟨81, _⟩ => ⟨S_, .i32⟩
  | .hbm, ⟨82, _⟩ => ⟨S1000000, .i32⟩
  | .hbm, ⟨83, _⟩ => ⟨S1000000, .i32⟩
  | .hbm, ⟨84, _⟩ => ⟨S1000000, .i32⟩
  | .hbm, ⟨85, _⟩ => ⟨S1000000x1, .i32⟩
  | .hbm, ⟨86, _⟩ => ⟨S1, .i32⟩
  | .hbm, ⟨87, _⟩ => ⟨S_, .i32⟩
  | .hbm, ⟨88, _⟩ => ⟨S1000000x1, .i32⟩
  | .hbm, ⟨89, _⟩ => ⟨S1000000x1, .i1⟩
  | .hbm, ⟨90, _⟩ => ⟨S1x1, .i32⟩
  | .hbm, ⟨91, _⟩ => ⟨S1000000x1, .i32⟩
  | .hbm, ⟨92, _⟩ => ⟨S1000000x1, .i1⟩
  | .hbm, ⟨93, _⟩ => ⟨S1000000x1, .i1⟩
  | .hbm, ⟨94, _⟩ => ⟨S_, .i1⟩
  | .hbm, ⟨95, _⟩ => ⟨S1000000, .i1⟩
  | .hbm, ⟨96, _⟩ => ⟨S1000000x64, .f32⟩
  | .hbm, ⟨97, _⟩ => ⟨S1000000x64, .i1⟩
  | .hbm, ⟨98, _⟩ => ⟨S_, .f32⟩
  | .hbm, ⟨99, _⟩ => ⟨S1000000x64, .f32⟩
  | .hbm, ⟨100, _⟩ => ⟨S1000000x64, .f32⟩
  | .hbm, ⟨101, _⟩ => ⟨S1000000x64, .f32⟩
  | .hbm, ⟨102, _⟩ => ⟨S1x64, .f32⟩
  | .hbm, ⟨103, _⟩ => ⟨S1000000x64, .f32⟩
  | .hbm, ⟨104, _⟩ => ⟨S1000000x64, .f32⟩
  | .hbm, ⟨105, _⟩ => ⟨S1000000x64, .f32⟩
  | .hbm, ⟨106, _⟩ => ⟨S_, .f32⟩
  | .hbm, ⟨107, _⟩ => ⟨S50000x64, .f32⟩
  | .hbm, ⟨108, _⟩ => ⟨S1000000x1, .i32⟩
  | .hbm, ⟨109, _⟩ => ⟨S50000x64, .f32⟩
  | .hbm, ⟨110, _⟩ => ⟨S_, .f32⟩
  | .hbm, ⟨111, _⟩ => ⟨S1000000x1, .f32⟩
  | .hbm, ⟨112, _⟩ => ⟨S_, .f32⟩
  | .hbm, ⟨113, _⟩ => ⟨S50000x1, .f32⟩
  | .hbm, ⟨114, _⟩ => ⟨S1000000x1, .i32⟩
  | .hbm, ⟨115, _⟩ => ⟨S50000x1, .f32⟩
  | .hbm, ⟨116, _⟩ => ⟨S_, .f32⟩
  | .hbm, ⟨117, _⟩ => ⟨S50000x1, .f32⟩
  | .hbm, ⟨118, _⟩ => ⟨S50000x1, .f32⟩
  | .hbm, ⟨119, _⟩ => ⟨S50000x64, .f32⟩
  | .hbm, ⟨120, _⟩ => ⟨S50000x64, .f32⟩
  | .hbm, ⟨121, _⟩ => ⟨S25000x128, .f32⟩
  | .hbm, ⟨122, _⟩ => ⟨S25000x128, .f32⟩
  | .hbm, ⟨123, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S64x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v4 : Ref sig .tc := ⟨.hbm, 33, rfl⟩
abbrev main_cst : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_cst_0 : Ref sig .tc := ⟨.hbm, 38, rfl⟩
abbrev main_v8 : Ref sig .tc := ⟨.hbm, 39, rfl⟩
abbrev main_cst_1 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_cst_2 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19_0 : Ref sig .tc := ⟨.hbm, 52, rfl⟩
abbrev main_v19_1 : Ref sig .tc := ⟨.hbm, 53, rfl⟩
abbrev main_v19_2 : Ref sig .tc := ⟨.hbm, 54, rfl⟩
abbrev main_call1_c : Ref sig .tc := ⟨.hbm, 55, rfl⟩
abbrev main_call1_v0 : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_c_1 : Ref sig .tc := ⟨.hbm, 63, rfl⟩
abbrev main_call1_c_2 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_3 : Ref sig .tc := ⟨.hbm, 71, rfl⟩
abbrev main_call1_v12 : Ref sig .tc := ⟨.hbm, 72, rfl⟩
abbrev main_call1_v13 : Ref sig .tc := ⟨.hbm, 73, rfl⟩
abbrev main_call1_v14 : Ref sig .tc := ⟨.hbm, 74, rfl⟩
abbrev main_call1_cst : Ref sig .tc := ⟨.hbm, 75, rfl⟩
abbrev main_call1_v15 : Ref sig .tc := ⟨.hbm, 76, rfl⟩
abbrev main_v20 : Ref sig .tc := ⟨.hbm, 77, rfl⟩
abbrev main_call2_c : Ref sig .tc := ⟨.hbm, 78, rfl⟩
abbrev main_call2_v0 : Ref sig .tc := ⟨.hbm, 79, rfl⟩
abbrev main_call2_v1 : Ref sig .tc := ⟨.hbm, 80, rfl⟩
abbrev main_call2_c_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_c_1 : Ref sig .tc := ⟨.hbm, 86, rfl⟩
abbrev main_call2_c_2 : Ref sig .tc := ⟨.hbm, 87, rfl⟩
abbrev main_call2_v6 : Ref sig .tc := ⟨.hbm, 88, rfl⟩
abbrev main_call2_v7 : Ref sig .tc := ⟨.hbm, 89, rfl⟩
abbrev main_call2_v8 : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_call2_c_3 : Ref sig .tc := ⟨.hbm, 94, rfl⟩
abbrev main_call2_v12 : Ref sig .tc := ⟨.hbm, 95, rfl⟩
abbrev main_call2_v13 : Ref sig .tc := ⟨.hbm, 96, rfl⟩
abbrev main_call2_v14 : Ref sig .tc := ⟨.hbm, 97, rfl⟩
abbrev main_call2_cst : Ref sig .tc := ⟨.hbm, 98, rfl⟩
abbrev main_call2_v15 : Ref sig .tc := ⟨.hbm, 99, rfl⟩
abbrev main_v21 : Ref sig .tc := ⟨.hbm, 100, rfl⟩
abbrev main_v22 : Ref sig .tc := ⟨.hbm, 101, rfl⟩
abbrev main_v23 : Ref sig .tc := ⟨.hbm, 102, rfl⟩
abbrev main_v24 : Ref sig .tc := ⟨.hbm, 103, rfl⟩
abbrev main_v25 : Ref sig .tc := ⟨.hbm, 104, rfl⟩
abbrev main_v26 : Ref sig .tc := ⟨.hbm, 105, rfl⟩
abbrev main_cst_3 : Ref sig .tc := ⟨.hbm, 106, rfl⟩
abbrev main_v27 : Ref sig .tc := ⟨.hbm, 107, rfl⟩
abbrev main_v28 : Ref sig .tc := ⟨.hbm, 108, rfl⟩
abbrev main_v29 : Ref sig .tc := ⟨.hbm, 109, rfl⟩
abbrev main_cst_4 : Ref sig .tc := ⟨.hbm, 110, rfl⟩
abbrev main_v30 : Ref sig .tc := ⟨.hbm, 111, rfl⟩
abbrev main_cst_5 : Ref sig .tc := ⟨.hbm, 112, rfl⟩
abbrev main_v31 : Ref sig .tc := ⟨.hbm, 113, rfl⟩
abbrev main_v32 : Ref sig .tc := ⟨.hbm, 114, rfl⟩
abbrev main_v33 : Ref sig .tc := ⟨.hbm, 115, rfl⟩
abbrev main_cst_6 : Ref sig .tc := ⟨.hbm, 116, rfl⟩
abbrev main_v34 : Ref sig .tc := ⟨.hbm, 117, rfl⟩
abbrev main_v35 : Ref sig .tc := ⟨.hbm, 118, rfl⟩
abbrev main_v36 : Ref sig .tc := ⟨.hbm, 119, rfl⟩
abbrev main_v37 : Ref sig .tc := ⟨.hbm, 120, rfl⟩
abbrev main_v38 : Ref sig .tc := ⟨.hbm, 121, rfl⟩
abbrev main_v39 : Ref sig .tc := ⟨.hbm, 122, rfl⟩
abbrev main_v40 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem1_1 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S5000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  bcast_S_S50000x64 : S_.BroadcastsInDim S50000x64 (![] : Fin 0 → Fin S50000x64.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  slices_S128x64_S64x64_0_0 : S128x64.Slices ![0, 0] S64x64
  slices_S128x64_S64x64_64_0 : S128x64.Slices ![64, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S64x64_S64x64 : S64x64.ShapeCasts S64x64
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  shapeCasts_S50000x64_S25000x128 : S50000x64.ShapeCasts S25000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S25000x128_S50000x64 : S25000x128.ShapeCasts S50000x64
  gather_S50000x64_S1000000x1_S1000000x64_1_0_n_n_0_1_164_wf : GatherDims.WF S50000x64 S1000000x1 S1000000x64 [1] [0] [] [0] [] 1 ![1, 64]
  scatter_S50000x64_S1000000x1_S1000000x64_1_0_0_1_wf : ScatterDims.WF S50000x64 S1000000x1 S1000000x64 [1] [0] [0] 1
  scatter_S50000x1_S1000000x1_S1000000x1_1_0_0_1_wf : ScatterDims.WF S50000x1 S1000000x1 S1000000x1 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S50000x64.size a
  hwx0_7 : ∀ i : grid0.Coords, EltTy.bits .f32 = 32 ∨ (Rect.block (s := S50000x64) S5000x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x64.size a ≤ S50000x64.size a
  hwx0_8 : ∀ i : grid0.Coords, EltTy.bits .f32 = 32 ∨ (Rect.block (s := S50000x64) S5000x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x64.size a ≤ S50000x64.size a
  hwx0_9 : ∀ i : grid0.Coords, EltTy.bits .f32 = 32 ∨ (Rect.block (s := S50000x64) S5000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S25000x128.size a
  hwx1_0 : ∀ i : grid1.Coords, EltTy.bits .f32 = 32 ∨ (Rect.block (s := S25000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S25000x128.size a
  hwx1_1 : ∀ i : grid1.Coords, EltTy.bits .f32 = 32 ∨ (Rect.block (s := S25000x128) S5000x128.size (cc1_transform_1 i) (hinb1_1 i)).WholeWords (EltTy.packing .f32)

variable [Facts₀]

def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def scatter_S50000x1_S1000000x1_S1000000x1_1_0_0_1 : ScatterDims S50000x1 S1000000x1 S1000000x1 where
  updateWindowDims := [1]
  insertedWindowDims := [0]
  scatterDimsToOperandDims := [0]
  indexVectorDim := 1
  wf := scatter_S50000x1_S1000000x1_S1000000x1_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19_0) S5000x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v19_1) S5000x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v19_2) S5000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x1000000 : Shape := ⟨2, ![2, 1000000]⟩
abbrev S64x64 : Shape := ⟨2, ![64, 64]⟩
abbrev S64 : Shape := ⟨1, ![64]⟩
abbrev S128x64 : Shape := ⟨2, ![128, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S50000x1 : Shape := ⟨2, ![50000, 1]⟩
abbrev S1x64 : Shape := ⟨2, ![1, 64]⟩
abbrev S1000000x128 : Shape := ⟨2, ![1000000, 128]⟩

abbrev nBuf : Space → Nat
  | .hbm => 87
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x1000000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S1x1000000, .i32⟩
  | .hbm, ⟨8, _⟩ => ⟨S1000000, .i32⟩
  | .hbm, ⟨9, _⟩ => ⟨S1x1000000, .i32⟩
  | .hbm, ⟨10, _⟩ => ⟨S1000000, .i32⟩
  | .hbm, ⟨11, _⟩ => ⟨S_, .i32⟩
  | .hbm, ⟨12, _⟩ => ⟨S1000000, .i32⟩
  | .hbm, ⟨13, _⟩ => ⟨S1000000, .i1⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S1000000, .i32⟩
  | .hbm, ⟨18, _⟩ => ⟨S1000000x1, .i32⟩
  | .hbm, ⟨19, _⟩ => ⟨S1000000x64, .f32⟩
  | .hbm, ⟨20, _⟩ => ⟨S_, .f32⟩
  | .hbm, ⟨21, _⟩ => ⟨S50000x64, .f32⟩
  | .hbm, ⟨22, _⟩ => ⟨S1000000x1, .i32⟩
  | .hbm, ⟨23, _⟩ => ⟨S50000x64, .f32⟩
  | .hbm, ⟨24, _⟩ => ⟨S_, .f32⟩
  | .hbm, ⟨25, _⟩ => ⟨S1000000x1, .f32⟩
  | .hbm, ⟨26, _⟩ => ⟨S_, .f32⟩
  | .hbm, ⟨27, _⟩ => ⟨S50000x1, .f32⟩
  | .hbm, ⟨28, _⟩ => ⟨S1000000x1, .i32⟩
  | .hbm, ⟨29, _⟩ => ⟨S50000x1, .f32⟩
  | .hbm, ⟨30, _⟩ => ⟨S_, .f32⟩
  | .hbm, ⟨31, _⟩ => ⟨S50000x1, .f32⟩
  | .hbm, ⟨32, _⟩ => ⟨S50000x1, .f32⟩
  | .hbm, ⟨33, _⟩ => ⟨S50000x64, .f32⟩
  | .hbm, ⟨34, _⟩ => ⟨S50000x64, .f32⟩
  | .hbm, ⟨35, _⟩ => ⟨S50000x64, .f32⟩
  | .hbm, ⟨36, _⟩ => ⟨S50000x64, .f32⟩
  | .hbm, ⟨37, _⟩ => ⟨S50000x64, .f32⟩
  | .hbm, ⟨38, _⟩ => ⟨S1x64, .f32⟩
  | .hbm, ⟨39, _⟩ => ⟨S50000x64, .f32⟩
  | .hbm, ⟨40, _⟩ => ⟨S50000x64, .f32⟩
  | .hbm, ⟨41, _⟩ => ⟨S_, .f32⟩
  | .hbm, ⟨42, _⟩ => ⟨S50000x64, .f32⟩
  | .hbm, ⟨43, _⟩ => ⟨S50000x64, .f32⟩
  | .hbm, ⟨44, _⟩ => ⟨S_, .i32⟩
  | .hbm, ⟨45, _⟩ => ⟨S1000000, .i32⟩
  | .hbm, ⟨46, _⟩ => ⟨S1000000, .i1⟩
  | .hbm, ⟨47, _⟩ => ⟨S_, .i32⟩
  | .hbm, ⟨48, _⟩ => ⟨S1000000, .i32⟩
  | .hbm, ⟨49, _⟩ => ⟨S1000000, .i32⟩
  | .hbm, ⟨50, _⟩ => ⟨S1000000, .i32⟩
  | .hbm, ⟨51, _⟩ => ⟨S1000000x1, .i32⟩
  | .hbm, ⟨52, _⟩ => ⟨S1000000x64, .f32⟩
  | .hbm, ⟨53, _⟩ => ⟨S_, .i32⟩
  | .hbm, ⟨54, _⟩ => ⟨S1000000, .i32⟩
  | .hbm, ⟨55, _⟩ => ⟨S1000000, .i1⟩
  | .hbm, ⟨56, _⟩ => ⟨S_, .i32⟩
  | .hbm, ⟨57, _⟩ => ⟨S1000000, .i32⟩
  | .hbm, ⟨58, _⟩ => ⟨S1000000, .i32⟩
  | .hbm, ⟨59, _⟩ => ⟨S1000000, .i32⟩
  | .hbm, ⟨60, _⟩ => ⟨S1000000x1, .i32⟩
  | .hbm, ⟨61, _⟩ => ⟨S1000000x64, .f32⟩
  | .hbm, ⟨62, _⟩ => ⟨S1000000x128, .f32⟩
  | .hbm, ⟨63, _⟩ => ⟨S1000000x64, .f32⟩
  | .hbm, ⟨64, _⟩ => ⟨S1x64, .f32⟩
  | .hbm, ⟨65, _⟩ => ⟨S1000000x64, .f32⟩
  | .hbm, ⟨66, _⟩ => ⟨S1000000x64, .f32⟩
  | .hbm, ⟨67, _⟩ => ⟨S1000000x64, .f32⟩
  | .hbm, ⟨68, _⟩ => ⟨S_, .f32⟩
  | .hbm, ⟨69, _⟩ => ⟨S1000000x64, .f32⟩
  | .hbm, ⟨70, _⟩ => ⟨S1000000x64, .f32⟩
  | .hbm, ⟨71, _⟩ => ⟨S_, .f32⟩
  | .hbm, ⟨72, _⟩ => ⟨S50000x64, .f32⟩
  | .hbm, ⟨73, _⟩ => ⟨S1000000x1, .i32⟩
  | .hbm, ⟨74, _⟩ => ⟨S50000x64, .f32⟩
  | .hbm, ⟨75, _⟩ => ⟨S_, .f32⟩
  | .hbm, ⟨76, _⟩ => ⟨S1000000x1, .f32⟩
  | .hbm, ⟨77, _⟩ => ⟨S_, .f32⟩
  | .hbm, ⟨78, _⟩ => ⟨S50000x1, .f32⟩
  | .hbm, ⟨79, _⟩ => ⟨S1000000x1, .i32⟩
  | .hbm, ⟨80, _⟩ => ⟨S50000x1, .f32⟩
  | .hbm, ⟨81, _⟩ => ⟨S_, .f32⟩
  | .hbm, ⟨82, _⟩ => ⟨S50000x1, .f32⟩
  | .hbm, ⟨83, _⟩ => ⟨S50000x1, .f32⟩
  | .hbm, ⟨84, _⟩ => ⟨S50000x64, .f32⟩
  | .hbm, ⟨85, _⟩ => ⟨S50000x64, .f32⟩
  | .hbm, ⟨86, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_cst : Ref sig .tc := ⟨.hbm, 41, rfl⟩
abbrev main_call0_v0 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_6 : Ref sig .tc := ⟨.hbm, 53, rfl⟩
abbrev main_v36 : Ref sig .tc := ⟨.hbm, 54, rfl⟩
abbrev main_v37 : Ref sig .tc := ⟨.hbm, 55, rfl⟩
abbrev main_c_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S50000x64 : S_.BroadcastsInDim S50000x64 (![] : Fin 0 → Fin S50000x64.rank)
  bcast_S_S1000000x1 : S_.BroadcastsInDim S1000000x1 (![] : Fin 0 → Fin S1000000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  concatenates_S1000000x64_S1000000x64_S1000000x128_d1 : Shape.Concatenates [S1000000x64, S1000000x64] S1000000x128 1
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  gather_S50000x64_S1000000x1_S1000000x64_1_0_n_n_0_1_164_wf : GatherDims.WF S50000x64 S1000000x1 S1000000x64 [1] [0] [] [0] [] 1 ![1, 64]
  scatter_S50000x64_S1000000x1_S1000000x64_1_0_0_1_wf : ScatterDims.WF S50000x64 S1000000x1 S1000000x64 [1] [0] [0] 1
  scatter_S50000x1_S1000000x1_S1000000x1_1_0_0_1_wf : ScatterDims.WF S50000x1 S1000000x1 S1000000x1 [1] [0] [0] 1
  dot_S50000x64_S64x64_S50000x64_1_0_0_1_n_n_wf : DotDims.WF S50000x64 S64x64 S50000x64 [1] [0] [0] [1] [] []
  dot_S1000000x128_S128x64_S1000000x64_1_0_0_1_n_n_wf : DotDims.WF S1000000x128 S128x64 S1000000x64 [1] [0] [0] [1] [] []

variable [Facts₀]

def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def scatter_S50000x1_S1000000x1_S1000000x1_1_0_0_1 : ScatterDims S50000x1 S1000000x1 S1000000x1 where
  updateWindowDims := [1]
  insertedWindowDims := [0]
  scatterDimsToOperandDims := [0]
  indexVectorDim := 1
  wf := scatter_S50000x1_S1000000x1_S1000000x1_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf

class Facts : Prop extends Facts₀ where

variable [Facts]
-- ==== Proof.TakeRows.lean ====
/-
  A row lookup that fills rows whose index is out of range, when every index is in range.

  The kernel's row lookup first adds 50000 to a negative index, then reads the table at the (clamped)
  index, and finally replaces every row whose shifted index lies outside [0, 49999] by a fill value. When
  every index word already lies in [0, 50000), the shift changes nothing, the in-range test holds on every
  row, and the lookup is the plain clamped read with no row replaced.
-/
import proofs.«405117_j87857851007234_3_alg».proof.Proof.Gen.KernelIdeal
import Idealize.ShloMosaic.Lib.ReduceAll
import Idealize.ShloMosaic.Lib.ValueIdx
import Idealize.ShloMosaic.Lib.Pipeline.Value

noncomputable section

namespace Cert.KernelIdeal.TakeRows

open Cert.KernelIdeal
open Idealize.ShloMosaic
open Facts₀

/-! ## A conjunction of ones is one -/

theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hf => by
    rw [List.foldl_cons]
    exact foldl_andi_ones f l _ (IntOp.andi_eq_one.2 ⟨h, hf a List.mem_cons_self⟩) (fun n hn => hf n (List.mem_cons_of_mem _ hn))

/-- A reduction by "and" from 1 over an array of ones is 1 at every result index. -/
theorem reduce_andi_ones {s t u : Shape} {axes : List (Fin s.rank)} (x : s.Idx → BitVec 1) (init : u.Idx → BitVec 1)
    (h : s.ReducesTo axes t) (hu : 0 < u.numel) (j : t.Idx) (hinit : ∀ k, init k = 1#1) (hx : ∀ i, x i = 1#1) :
    Host.reduce IntOp.andi x init h hu j = 1#1 := by
  rw [Host.reduce_eq_foldl]
  exact foldl_andi_ones x _ _ (hinit _) (fun n _ => hx n)

/-! ## The lookup's pieces -/

/-- The index column the lookup reads with: each word shifted by 50000 when negative, as a column. -/
def wrapIx (v : IVec S1000000 32) : IVec S1000000x1 32 :=
  broadcastInDim S1000000x1 ![0] bcast_S1000000_S1000000x1_0
    (select (cmpi .slt v (broadcastInDim S1000000 ![] bcast_S_S1000000 (constantI S_ 32 0#32)))
      (addi v (broadcastInDim S1000000 ![] bcast_S_S1000000 (constantI S_ 32 50000#32))) v)

/-- The in-range test of each row, spread over the row's 64 columns. -/
def inBounds (v : IVec S1000000 32) : IVec S1000000x64 1 :=
  broadcastInDim S1000000x64 ![0] bcast_S1000000_S1000000x64_0
    (Host.reduce IntOp.andi
      (andi (cmpi .sge (wrapIx v) (broadcastInDim S1000000x1 ![] bcast_S_S1000000x1 (constantI S_ 32 0#32)))
            (cmpi .sle (wrapIx v) (broadcastInDim S1000000x1 ![0, 1] bcast_S1x1_S1000000x1_0_1
              (broadcastInDim S1x1 ![1] bcast_S1_S1x1_1 (constantI S1 32 49999#32)))))
      (constantI S_ 1 1#1) reducesTo_S1000000x1_S1000000_d1 h_S_)

variable {F : FTy → Type} [FloatOps F]

/-- The lookup: the clamped read, with the rows that fail the in-range test replaced by the fill value. -/
def takeRows (T : FVec F S50000x64 .f32) (v : IVec S1000000 32) : FVec F S1000000x64 .f32 :=
  select (inBounds v) (Host.gather gather_S50000x64_S1000000x1_S1000000x64_1_0_n_n_0_1_164 T (wrapIx v))
    (broadcastInDim S1000000x64 ![] bcast_S_S1000000x64 (constant S_ .f32 0x7FC00000#32))

/-! ## With every index in range -/

/-- A word in [0, 50000) is not shifted, so every entry of the index column is one of the words. -/
theorem wrapIx_range (v : IVec S1000000 32) (hr : ∀ e : S1000000.Idx, 0 ≤ (v e).toInt ∧ (v e).toInt < 50000)
    (i : S1000000x1.Idx) : 0 ≤ (wrapIx v i).toInt ∧ (wrapIx v i).toInt < 50000 := by
  unfold wrapIx
  simp only [broadcastInDim]
  generalize (fun a : Fin S1000000.rank => _) = k
  show 0 ≤ (Scalar.select (IntOp.cmpi .slt (v k) 0#32) (IntOp.addi (v k) 50000#32) (v k)).toInt
    ∧ (Scalar.select (IntOp.cmpi .slt (v k) 0#32) (IntOp.addi (v k) 50000#32) (v k)).toInt < 50000
  have hk := hr k
  have hneg : ¬ IntOp.cmpi .slt (v k) 0#32 = 1#1 := fun h => by
    have h' := IntOp.cmpi_slt.1 h
    have h0 : (0#32 : BitVec 32).toInt = 0 := by decide
    omega
  unfold Scalar.select
  rw [if_neg (show ¬ IntOp.cmpi .slt (v k) 0#32 = 1 from hneg)]
  exact hk

/-- So the in-range test holds on every row. -/
theorem inBounds_one (v : IVec S1000000 32) (hr : ∀ e : S1000000.Idx, 0 ≤ (v e).toInt ∧ (v e).toInt < 50000)
    (j : S1000000x64.Idx) : inBounds v j = 1#1 := by
  unfold inBounds
  simp only [broadcastInDim]
  refine reduce_andi_ones _ _ _ _ _ (fun _ => rfl) (fun i => ?_)
  have hi := wrapIx_range v hr i
  show IntOp.andi (IntOp.cmpi .sge (wrapIx v i) 0#32) (IntOp.cmpi .sle (wrapIx v i) 49999#32) = 1#1
  have h0 : (0#32 : BitVec 32).toInt = 0 := by decide
  have h1 : (49999#32 : BitVec 32).toInt = 49999 := by decide
  exact IntOp.andi_eq_one.2 ⟨IntOp.cmpi_sge.2 (by omega), IntOp.cmpi_sle.2 (by omega)⟩

/-- With every index in range the lookup replaces no row: it is the plain clamped read. -/
theorem takeRows_eq (T : FVec F S50000x64 .f32) (v : IVec S1000000 32)
    (hr : ∀ e : S1000000.Idx, 0 ≤ (v e).toInt ∧ (v e).toInt < 50000) :
    takeRows T v = Host.gather gather_S50000x64_S1000000x1_S1000000x64_1_0_n_n_0_1_164 T (wrapIx v) := by
  funext j
  unfold takeRows
  rw [ValueIdx.select_apply, inBounds_one v hr j, ValueIdx.select_one]

end Cert.KernelIdeal.TakeRows

end
-- ==== Proof.KHost.lean ====
/-
  The kernel program's host-side computations, as functions of the arrays they read.

  Around its two regions the kernel program does, on the host: cut the two rows of the edge list into a
  source and a destination index vector; look rows of a table up by an index vector (TakeRows); average
  rows by segment (a sum scattered by segment id over a count scattered the same way, the count raised
  to at least 1); cut the edge weight into its two 64-row halves; and, per edge, add the two looked-up
  rows and the bias and square the sum.
-/
import proofs.«405117_j87857851007234_3_alg».proof.Proof.Gen.KernelIdeal
import proofs.«405117_j87857851007234_3_alg».proof.Proof.TakeRows

noncomputable section

namespace Cert.KernelIdeal.KHost

open Cert.KernelIdeal Cert.KernelIdeal.TakeRows
open Idealize.ShloMosaic
open Facts₀

variable {F : FTy → Type} [FloatOps F]

/-- Row 0 of the edge list: each edge's source node. -/
def srcOf (E : IVec S2x1000000 32) : IVec S1000000 32 :=
  shapeCast S1000000 (extractStridedSlice S1x1000000 ![0, 0] E slices_S2x1000000_S1x1000000_0_0) shapeCasts_S1x1000000_S1000000

/-- Row 1 of the edge list: each edge's destination node. -/
def dstOf (E : IVec S2x1000000 32) : IVec S1000000 32 :=
  shapeCast S1000000 (extractStridedSlice S1x1000000 ![1, 0] E slices_S2x1000000_S1x1000000_1_0) shapeCasts_S1x1000000_S1000000

/-- The mean of the rows of each segment: the rows summed by segment id, over the number of rows of the
    segment raised to at least 1. -/
def segMean (vals : FVec F S1000000x64 .f32) (ids : IVec S1000000 32) : FVec F S50000x64 .f32 :=
  Host.divf
    (Host.scatterAdd scatter_S50000x64_S1000000x1_S1000000x64_1_0_0_1
      (broadcastInDim S50000x64 ![] bcast_S_S50000x64 (constant S_ .f32 0x00000000#32))
      (broadcastInDim S1000000x1 ![0] bcast_S1000000_S1000000x1_0 ids) vals)
    (broadcastInDim S50000x64 ![0, 1] bcast_S50000x1_S50000x64_0_1
      (maximumf
        (Host.scatterAdd scatter_S50000x1_S1000000x1_S1000000x1_1_0_0_1
          (broadcastInDim S50000x1 ![] bcast_S_S50000x1 (constant S_ .f32 0x00000000#32))
          (broadcastInDim S1000000x1 ![0] bcast_S1000000_S1000000x1_0 ids)
          (broadcastInDim S1000000x1 ![] bcast_S_S1000000x1 (constant S_ .f32 0x3F800000#32)))
        (broadcastInDim S50000x1 ![] bcast_S_S50000x1 (constant S_ .f32 0x3F800000#32))))

/-- The mean of each node's in-neighbours' features. -/
def neighbourMean (X : FVec F S50000x64 .f32) (src dst : IVec S1000000 32) : FVec F S50000x64 .f32 :=
  segMean (takeRows X src) dst

/-- The first 64 rows of the edge weight. -/
def topHalf (Qw : FVec F S128x64 .f32) : FVec F S64x64 .f32 :=
  extractStridedSlice S64x64 ![0, 0] Qw slices_S128x64_S64x64_0_0

/-- The last 64 rows of the edge weight. -/
def bottomHalf (Qw : FVec F S128x64 .f32) : FVec F S64x64 .f32 :=
  extractStridedSlice S64x64 ![64, 0] Qw slices_S128x64_S64x64_64_0

/-- The bias vector as a one-row matrix. -/
def biasRow (B : FVec F S64 .f32) : FVec F S1x64 .f32 :=
  shapeCast S1x64 B shapeCasts_S64_S1x64

/-- Two edge-indexed tables added, the bias added to every edge, and the sum squared. -/
def squareOf (t1 t2 : FVec F S1000000x64 .f32) (Qb : FVec F S64 .f32) : FVec F S1000000x64 .f32 :=
  mulf
    (addf (addf t1 t2)
      (broadcastInDim S1000000x64 ![0, 1] bcast_S1x64_S1000000x64_0_1 (broadcastInDim S1x64 ![1] bcast_S64_S1x64_1 Qb)))
    (addf (addf t1 t2)
      (broadcastInDim S1000000x64 ![0, 1] bcast_S1x64_S1000000x64_0_1 (broadcastInDim S1x64 ![1] bcast_S64_S1x64_1 Qb)))

/-- Per edge: the source's row of the first table plus the destination's row of the second plus the bias, squared. -/
def edgeSquare (T1 T2 : FVec F S50000x64 .f32) (src dst : IVec S1000000 32) (Qb : FVec F S64 .f32) : FVec F S1000000x64 .f32 :=
  squareOf (takeRows T1 src) (takeRows T2 dst) Qb

/-- The mean, over each node's out-edges, of the per-edge squares. -/
def edgeMean (T1 T2 : FVec F S50000x64 .f32) (src dst : IVec S1000000 32) (Qb : FVec F S64 .f32) : FVec F S50000x64 .f32 :=
  segMean (edgeSquare T1 T2 src dst Qb) src

/-- The same, laid out with 128 columns for the second region. -/
def edgeMeanWide (T1 T2 : FVec F S50000x64 .f32) (src dst : IVec S1000000 32) (Qb : FVec F S64 .f32) : FVec F S25000x128 .f32 :=
  shapeCast S25000x128 (edgeMean T1 T2 src dst Qb) shapeCasts_S50000x64_S25000x128

end Cert.KernelIdeal.KHost

end
-- ==== Proof.HostReadA.lean ====
/-
  The kernel program's host operations before its first region, read back.

  From the launch memory the program cuts the edge list into the source and destination index vectors,
  looks the node features up by source, averages them by destination, cuts the edge weight into its two
  halves and lays the bias out as a row. Each buffer the first region or the later stretches depend on is
  read here as a function of the argument arrays; a buffer no operation writes keeps its launch contents.
  The lookup is an outlined function whose values pass through typed references: reading a value through
  its own reference and back changes nothing.
-/
import proofs.«405117_j87857851007234_3_alg».proof.Proof.Gen.KernelIdeal.Frame
import proofs.«405117_j87857851007234_3_alg».proof.Proof.KHost
import Idealize.ShloMosaic.Lib.StableHlo.Run

set_option maxRecDepth 16384

noncomputable section

namespace Cert.KernelIdeal.HostReadA

open Cert.KernelIdeal Cert.KernelIdeal.Gen Cert.KernelIdeal.KHost Cert.KernelIdeal.TakeRows
open Idealize.ShloMosaic Idealize.ShloMosaic.TcCoe Idealize.SL.Sem Idealize.ShloMosaic.StableHlo

variable {F : FTy → Type} [FloatOps F]

/-! ## Values through typed references -/

theorem ofBuf_toBuf {Val : EltTy → Type} {T : BufTy} (x : TRef sig T) (v : T.Contents Val) : x.ofBuf (x.toBuf v) = v := by
  unfold TRef.ofBuf TRef.toBuf
  simp

theorem leaf_v1 (Wa : Valuation τ sig (Elt F)) (p q r) :
    (TRef.of (T := ⟨S1000000, .i32⟩) main_v1 p q r).ofBuf (Wa (Proc.devRef .tc main_v1)) = Wa (Proc.devRef .tc main_v1) := rfl
theorem leaf_arg0 (Wa : Valuation τ sig (Elt F)) (p q r) :
    (TRef.of (T := ⟨S50000x64, .f32⟩) main_arg0 p q r).ofBuf (Wa (Proc.devRef .tc main_arg0)) = Wa (Proc.devRef .tc main_arg0) := rfl
theorem out_v4 (p q r) (v : (⟨S1000000x64, .f32⟩ : BufTy).Contents (Elt F)) :
    (TRef.of (T := ⟨S1000000x64, .f32⟩) main_v4 p q r).toBuf v = v := rfl

variable (m : (ℓ : Loc nD τ sig) → Buf (Elt F) ℓ) (ρ : Dev nD → PrngReg)

/-! ## The index vectors -/

set_option maxHeartbeats 1000000 in
theorem W3_src (c : Dev nD) : W3 m ρ c (Proc.devRef .tc main_v1) = srcOf (m ((c : Thread nD τ).loc main_arg1)) := by
  show StableHlo.after hostOps0_2 (StableHlo.after hostOps0_1 (StableHlo.after hostOps0 (W0 m ρ c))) (Proc.devRef .tc main_v1)
    = srcOf (W0 m ρ c (Proc.devRef .tc main_arg1))
  generalize W0 m ρ c = Wz
  after_results_simp
  rfl

set_option maxHeartbeats 1000000 in
theorem W3_dst (c : Dev nD) : W3 m ρ c (Proc.devRef .tc main_v3) = dstOf (m ((c : Thread nD τ).loc main_arg1)) := by
  show StableHlo.after hostOps0_2 (StableHlo.after hostOps0_1 (StableHlo.after hostOps0 (W0 m ρ c))) (Proc.devRef .tc main_v3)
    = dstOf (W0 m ρ c (Proc.devRef .tc main_arg1))
  generalize W0 m ρ c = Wz
  after_results_simp
  rfl

set_option maxHeartbeats 1000000 in
theorem W2_dst (c : Dev nD) : W2 m ρ c (Proc.devRef .tc main_v3) = dstOf (m ((c : Thread nD τ).loc main_arg1)) := by
  show StableHlo.after hostOps0_1 (StableHlo.after hostOps0 (W0 m ρ c)) (Proc.devRef .tc main_v3)
    = dstOf (W0 m ρ c (Proc.devRef .tc main_arg1))
  generalize W0 m ρ c = Wz
  after_results_simp
  rfl

theorem W1_src (c : Dev nD) : W1 m ρ c (Proc.devRef .tc main_v1) = srcOf (m ((c : Thread nD τ).loc main_arg1)) := by
  show StableHlo.after hostOps0 (W0 m ρ c) (Proc.devRef .tc main_v1) = srcOf (W0 m ρ c (Proc.devRef .tc main_arg1))
  generalize W0 m ρ c = Wz
  after_results_simp
  rfl

theorem W1_X (c : Dev nD) : W1 m ρ c (Proc.devRef .tc main_arg0) = m ((c : Thread nD τ).loc main_arg0) := by
  show StableHlo.after hostOps0 (W0 m ρ c) (Proc.devRef .tc main_arg0) = W0 m ρ c (Proc.devRef .tc main_arg0)
  generalize W0 m ρ c = Wz
  after_results_simp

/-! ## The argument arrays the first region reads whole -/

set_option maxHeartbeats 1000000 in
theorem W3_X (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0)
    = W0 m ρ c (Proc.devRef .tc main_arg0)
  generalize W0 m ρ c = Wz
  after_results_simp

set_option maxHeartbeats 1000000 in
theorem W3_Ws (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2)
    = W0 m ρ c (Proc.devRef .tc main_arg2)
  generalize W0 m ρ c = Wz
  after_results_simp

set_option maxHeartbeats 1000000 in
theorem W3_Wn (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3)
    = W0 m ρ c (Proc.devRef .tc main_arg3)
  generalize W0 m ρ c = Wz
  after_results_simp

set_option maxHeartbeats 1000000 in
theorem W3_Qb (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6)
    = W0 m ρ c (Proc.devRef .tc main_arg6)
  generalize W0 m ρ c = Wz
  after_results_simp

/-! ## The edge weight's halves and the bias row -/

set_option maxHeartbeats 1000000 in
theorem W3_top (c : Dev nD) : W3 m ρ c (Proc.devRef .tc main_v16) = topHalf (m ((c : Thread nD τ).loc main_arg5)) := by
  show StableHlo.after hostOps0_2 (StableHlo.after hostOps0_1 (StableHlo.after hostOps0 (W0 m ρ c))) (Proc.devRef .tc main_v16)
    = topHalf (W0 m ρ c (Proc.devRef .tc main_arg5))
  generalize W0 m ρ c = Wz
  after_results_simp
  rfl

set_option maxHeartbeats 1000000 in
theorem W3_bottom (c : Dev nD) : W3 m ρ c (Proc.devRef .tc main_v17) = bottomHalf (m ((c : Thread nD τ).loc main_arg5)) := by
  show StableHlo.after hostOps0_2 (StableHlo.after hostOps0_1 (StableHlo.after hostOps0 (W0 m ρ c))) (Proc.devRef .tc main_v17)
    = bottomHalf (W0 m ρ c (Proc.devRef .tc main_arg5))
  generalize W0 m ρ c = Wz
  after_results_simp
  rfl

set_option maxHeartbeats 1000000 in
theorem W3_bias (c : Dev nD) : W3 m ρ c (Proc.devRef .tc main_v18) = biasRow (m ((c : Thread nD τ).loc main_arg4)) := by
  show StableHlo.after hostOps0_2 (StableHlo.after hostOps0_1 (StableHlo.after hostOps0 (W0 m ρ c))) (Proc.devRef .tc main_v18)
    = biasRow (W0 m ρ c (Proc.devRef .tc main_arg4))
  generalize W0 m ρ c = Wz
  after_results_simp
  rfl

/-! ## The neighbour means -/

set_option maxHeartbeats 1000000 in
theorem W2_take (c : Dev nD) : W2 m ρ c (Proc.devRef .tc main_v4)
    = takeRows (W1 m ρ c (Proc.devRef .tc main_arg0)) (W1 m ρ c (Proc.devRef .tc main_v1)) := by
  show StableHlo.after hostOps0_1 (W1 m ρ c) (Proc.devRef .tc main_v4) = _
  generalize W1 m ρ c = Wa
  after_results_simp
  simp only [ofBuf_toBuf, leaf_v1, leaf_arg0, out_v4]
  rfl

set_option maxHeartbeats 1000000 in
theorem W3_segMean (c : Dev nD) : W3 m ρ c (Proc.devRef .tc main_v15)
    = segMean (W2 m ρ c (Proc.devRef .tc main_v4)) (W2 m ρ c (Proc.devRef .tc main_v3)) := by
  show StableHlo.after hostOps0_2 (W2 m ρ c) (Proc.devRef .tc main_v15) = _
  generalize W2 m ρ c = Wa
  after_results
  rfl

theorem W3_mean (c : Dev nD) : W3 m ρ c (Proc.devRef .tc main_v15)
    = neighbourMean (m ((c : Thread nD τ).loc main_arg0)) (srcOf (m ((c : Thread nD τ).loc main_arg1))) (dstOf (m ((c : Thread nD τ).loc main_arg1))) := by
  rw [W3_segMean, W2_take, W2_dst, W1_X, W1_src]
  rfl

end Cert.KernelIdeal.HostReadA

end
-- ==== Proof.HostReadB.lean ====
/-
  The kernel program's host operations after its first region, read back.

  Between the regions the program looks the two product tables up, one by source and one by destination,
  adds them and the bias, squares, averages by source node and lays the result out with 128 columns for
  the second region; after the second region it lays that region's output back out with 64 columns. The
  first region writes only its three output arrays, so the index vectors and the bias reach the second
  stretch as they were.
-/
import proofs.«405117_j87857851007234_3_alg».proof.Proof.Gen.KernelIdeal.Frame
import proofs.«405117_j87857851007234_3_alg».proof.Proof.KHost
import Idealize.ShloMosaic.Lib.StableHlo.Run

set_option maxRecDepth 16384

noncomputable section

namespace Cert.KernelIdeal.HostReadB

open Cert.KernelIdeal Cert.KernelIdeal.Gen Cert.KernelIdeal.KHost Cert.KernelIdeal.TakeRows
open Idealize.ShloMosaic Idealize.ShloMosaic.TcCoe Idealize.SL.Sem Idealize.ShloMosaic.StableHlo

variable {F : FTy → Type} [FloatOps F]

/-! ## Values through typed references -/

theorem ofBuf_toBuf {Val : EltTy → Type} {T : BufTy} (x : TRef sig T) (v : T.Contents Val) : x.ofBuf (x.toBuf v) = v := by
  unfold TRef.ofBuf TRef.toBuf
  simp

theorem leaf_v1 (Wa : Valuation τ sig (Elt F)) (p q r) :
    (TRef.of (T := ⟨S1000000, .i32⟩) main_v1 p q r).ofBuf (Wa (Proc.devRef .tc main_v1)) = Wa (Proc.devRef .tc main_v1) := rfl
theorem leaf_v3 (Wa : Valuation τ sig (Elt F)) (p q r) :
    (TRef.of (T := ⟨S1000000, .i32⟩) main_v3 p q r).ofBuf (Wa (Proc.devRef .tc main_v3)) = Wa (Proc.devRef .tc main_v3) := rfl
theorem leaf_t1 (Wa : Valuation τ sig (Elt F)) (p q r) :
    (TRef.of (T := ⟨S50000x64, .f32⟩) main_v19_1 p q r).ofBuf (Wa (Proc.devRef .tc main_v19_1)) = Wa (Proc.devRef .tc main_v19_1) := rfl
theorem leaf_t2 (Wa : Valuation τ sig (Elt F)) (p q r) :
    (TRef.of (T := ⟨S50000x64, .f32⟩) main_v19_2 p q r).ofBuf (Wa (Proc.devRef .tc main_v19_2)) = Wa (Proc.devRef .tc main_v19_2) := rfl
theorem out_v20 (p q r) (v : (⟨S1000000x64, .f32⟩ : BufTy).Contents (Elt F)) :
    (TRef.of (T := ⟨S1000000x64, .f32⟩) main_v20 p q r).toBuf v = v := rfl
theorem out_v21 (p q r) (v : (⟨S1000000x64, .f32⟩ : BufTy).Contents (Elt F)) :
    (TRef.of (T := ⟨S1000000x64, .f32⟩) main_v21 p q r).toBuf v = v := rfl

variable (m : (ℓ : Loc nD τ sig) → Buf (Elt F) ℓ) (ρ : Dev nD → PrngReg)

/-! ## Across the first region -/

theorem W4_src (c : Dev nD) : W4 m ρ c (Proc.devRef .tc main_v1) = W3 m ρ c (Proc.devRef .tc main_v1) :=
  W4_of_ne m ρ c main_v1 (by decide)
theorem W4_dst (c : Dev nD) : W4 m ρ c (Proc.devRef .tc main_v3) = W3 m ρ c (Proc.devRef .tc main_v3) :=
  W4_of_ne m ρ c main_v3 (by decide)
theorem W4_Qb (c : Dev nD) : W4 m ρ c (Proc.devRef .tc main_arg6) = W3 m ρ c (Proc.devRef .tc main_arg6) :=
  W4_of_ne m ρ c main_arg6 (by decide)

/-! ## The two lookups -/

set_option maxHeartbeats 1000000 in
theorem W5_take (c : Dev nD) : W5 m ρ c (Proc.devRef .tc main_v20)
    = takeRows (W4 m ρ c (Proc.devRef .tc main_v19_1)) (W4 m ρ c (Proc.devRef .tc main_v1)) := by
  show StableHlo.after hostOps1 (W4 m ρ c) (Proc.devRef .tc main_v20) = _
  generalize W4 m ρ c = Wa
  after_results_simp
  simp only [ofBuf_toBuf, leaf_v1, leaf_t1, out_v20]
  rfl

set_option maxHeartbeats 1000000 in
theorem W5_t2 (c : Dev nD) : W5 m ρ c (Proc.devRef .tc main_v19_2) = W4 m ρ c (Proc.devRef .tc main_v19_2) := by
  show StableHlo.after hostOps1 (W4 m ρ c) (Proc.devRef .tc main_v19_2) = _
  generalize W4 m ρ c = Wa
  after_results_simp

set_option maxHeartbeats 1000000 in
theorem W5_dst (c : Dev nD) : W5 m ρ c (Proc.devRef .tc main_v3) = W4 m ρ c (Proc.devRef .tc main_v3) := by
  show StableHlo.after hostOps1 (W4 m ρ c) (Proc.devRef .tc main_v3) = _
  generalize W4 m ρ c = Wa
  after_results_simp

set_option maxHeartbeats 1000000 in
theorem W6_take (c : Dev nD) : W6 m ρ c (Proc.devRef .tc main_v21)
    = takeRows (W5 m ρ c (Proc.devRef .tc main_v19_2)) (W5 m ρ c (Proc.devRef .tc main_v3)) := by
  show StableHlo.after hostOps1_1 (W5 m ρ c) (Proc.devRef .tc main_v21) = _
  generalize W5 m ρ c = Wa
  after_results_simp
  simp only [ofBuf_toBuf, leaf_v3, leaf_t2, out_v21]
  rfl

set_option maxHeartbeats 1000000 in
theorem W6_t1 (c : Dev nD) : W6 m ρ c (Proc.devRef .tc main_v20) = W5 m ρ c (Proc.devRef .tc main_v20) := by
  show StableHlo.after hostOps1_1 (W5 m ρ c) (Proc.devRef .tc main_v20) = _
  generalize W5 m ρ c = Wa
  after_results_simp

set_option maxHeartbeats 1000000 in
theorem W6_src (c : Dev nD) : W6 m ρ c (Proc.devRef .tc main_v1) = W4 m ρ c (Proc.devRef .tc main_v1) := by
  show StableHlo.after hostOps1_1 (StableHlo.after hostOps1 (W4 m ρ c)) (Proc.devRef .tc main_v1) = _
  generalize W4 m ρ c = Wa
  after_results_simp

set_option maxHeartbeats 1000000 in
theorem W6_Qb (c : Dev nD) : W6 m ρ c (Proc.devRef .tc main_arg6) = W4 m ρ c (Proc.devRef .tc main_arg6) := by
  show StableHlo.after hostOps1_1 (StableHlo.after hostOps1 (W4 m ρ c)) (Proc.devRef .tc main_arg6) = _
  generalize W4 m ρ c = Wa
  after_results_simp

/-! ## The mean of the per-edge squares, and the result's layout -/

set_option maxHeartbeats 1000000 in
theorem W7_square (c : Dev nD) : W7 m ρ c (Proc.devRef .tc main_v38)
    = shapeCast S25000x128
        (segMean (squareOf (W6 m ρ c (Proc.devRef .tc main_v20)) (W6 m ρ c (Proc.devRef .tc main_v21)) (W6 m ρ c (Proc.devRef .tc main_arg6)))
          (W6 m ρ c (Proc.devRef .tc main_v1))) Facts₀.shapeCasts_S50000x64_S25000x128 := by
  show StableHlo.after hostOps1_2 (W6 m ρ c) (Proc.devRef .tc main_v38) = _
  generalize W6 m ρ c = Wa
  after_results
  rfl

theorem W7_wide (c : Dev nD) : W7 m ρ c (Proc.devRef .tc main_v38)
    = edgeMeanWide (W4 m ρ c (Proc.devRef .tc main_v19_1)) (W4 m ρ c (Proc.devRef .tc main_v19_2))
        (W4 m ρ c (Proc.devRef .tc main_v1)) (W4 m ρ c (Proc.devRef .tc main_v3)) (W4 m ρ c (Proc.devRef .tc main_arg6)) := by
  rw [W7_square, W6_t1, W5_take, W6_take, W5_t2, W5_dst, W6_src, W6_Qb]
  rfl

theorem W9_out (c : Dev nD) : W9 m ρ c (Proc.devRef .tc main_v40)
    = shapeCast S50000x64 (W8 m ρ c (Proc.devRef .tc main_v39)) Facts₀.shapeCasts_S25000x128_S50000x64 := by
  show StableHlo.after hostOps2 (W8 m ρ c) (Proc.devRef .tc main_v40) = _
  generalize W8 m ρ c = Wa
  after_results
  rfl

end Cert.KernelIdeal.HostReadB

end
-- ==== Proof.SageBody.lean ====
/-
  The first kernel region's body, read at an index over the extended reals.

  One block of the body takes 5000 node rows x and 5000 rows of neighbour means n, the two 64 x 64 layer
  weights, the bias row and the two 64 x 64 halves of the edge weight. It stores
      h = max (x W_self + n W_neigh + bias, 0),     h Q_1,     h Q_2.
  Over the extended reals a change of float format is the identity and a matrix product into a zero
  accumulator is the plain sum of products over the contracted axis, so entry (p, q) of the three stores is
      h p q      = max ((sum over k of x p k * W_self k q) + (sum over k of n p k * W_neigh k q) + bias q, 0),
      (h Q) p q  = sum over k of h p k * Q k q.
-/
import proofs.«405117_j87857851007234_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.SageBody

open Cert.KernelIdeal Cert.KernelIdeal.Gen
open Idealize.ShloMosaic Idealize.ShloMosaic.ValueIdx

/-! ## The block's matrix product at an index -/

theorem dot_lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem dot_lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem dot_rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem dot_rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A 5000 x 64 block times a 64 x 64 matrix into a zero accumulator, at (p, q): the sum over k of the
    block's (p, k) times the matrix's (k, q). -/
theorem matmul_at {φ₁ φ₂ : FTy} (a : FVec Ideal S5000x64 φ₁) (b : FVec Ideal S64x64 φ₂) (p : Fin 5000) (q : Fin 64) :
    matmul dot_S5000x64_S64x64_S5000x64_1_0_0_1_n_n none a b (constant S5000x64 .f32 0x00000000#32) (ix2 p q)
      = ∑ k : Fin 64, a (ix2 p k) * b (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact dot_lhs_0 _ _
    | ⟨1, _⟩ => exact (dot_lhs_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (dot_rhs_0 _ _).trans hk
    | ⟨1, _⟩ => exact dot_rhs_1 _ _)
  rw [el, er]

/-! ## The three stores at an index -/

/-- Entry (p, q) of the hidden block. -/
def hAt (x n : FVec Ideal S5000x64 .f32) (ws wn : FVec Ideal S64x64 .f32) (b : FVec Ideal S1x64 .f32) (p : Fin 5000) (q : Fin 64) : EReal :=
  max ((∑ k : Fin 64, x (ix2 p k) * ws (ix2 k q) + ∑ k : Fin 64, n (ix2 p k) * wn (ix2 k q)) + b (ix2 (0 : Fin 1) q)) 0

/-- The first store is the hidden block. -/
theorem pay1_at (x n : Vec Ideal S5000x64 .f32) (ws wn : Vec Ideal S64x64 .f32) (b : Vec Ideal S1x64 .f32) (p : Fin 5000) (q : Fin 64) :
    k0_pay1 (F := Ideal) x n ws wn b (ix2 p q) = hAt x n ws wn b p q := by
  unfold k0_pay1 hAt
  simp only [shapeCast_self]
  rw [ValueIdx.maximumf_apply, ValueIdx.addf_apply, ValueIdx.addf_apply, matmul_at, matmul_at,
    ValueIdx.broadcastTo_1b_ab_apply, ValueIdx.broadcast_apply]
  simp only [ValueIdx.truncf_apply]
  show max _ (Ideal.ofBits .f32 0x00000000#32) = _
  rw [Ideal.ofBits_zero_f32]

/-- The second and third stores are the hidden block times a 64 x 64 matrix. -/
theorem pay3_at (x n : Vec Ideal S5000x64 .f32) (ws wn : Vec Ideal S64x64 .f32) (b : Vec Ideal S1x64 .f32) (qm : Vec Ideal S64x64 .f32) (p : Fin 5000) (q : Fin 64) :
    k0_pay3 (F := Ideal) x n ws wn b qm (ix2 p q) = ∑ k : Fin 64, hAt x n ws wn b p k * qm (ix2 k q) := by
  unfold k0_pay3 k0_pay2
  simp only [shapeCast_self]
  rw [matmul_at]
  refine Finset.sum_congr rfl fun k _ => ?_
  rw [ValueIdx.truncf_apply, ValueIdx.truncf_apply, pay1_at]

theorem pay4_eq (x n : Vec Ideal S5000x64 .f32) (ws wn : Vec Ideal S64x64 .f32) (b : Vec Ideal S1x64 .f32) (qm : Vec Ideal S64x64 .f32) :
    k0_pay4 (F := Ideal) x n ws wn b qm = k0_pay3 (F := Ideal) x n ws wn b qm := rfl

end Cert.KernelIdeal.SageBody

end
-- ==== Proof.SageRegion.lean ====
/-
  The first kernel region, as three whole-array functions of the arrays it reads.

  The region walks the 50000 node rows in ten blocks of 5000. The node features and the neighbour means
  are read block by block, block t covering rows 5000 t to 5000 t + 4999; the four 64 x 64 matrices and
  the bias row are read whole at every point. The three outputs are written block by block at the same
  rows. A row of the hidden layer depends only on the same row of the features and of the neighbour means,
  so what point t writes back is block t of one function of the whole arrays:
      H r q      = max ((sum over k of X r k * W_self k q) + (sum over k of N r k * W_neigh k q) + bias q, 0),
      (H Q) r q  = sum over k of H r k * Q k q,
  and the ten blocks tile the 50000 rows, so those are the arrays the region leaves.
-/
import proofs.«405117_j87857851007234_3_alg».proof.Proof.Gen.KernelIdeal.Frame
import proofs.«405117_j87857851007234_3_alg».proof.Proof.SageBody
import Idealize.ShloMosaic.Lib.Pipeline.Value

set_option maxRecDepth 16384

noncomputable section

open scoped BigOperators

namespace Cert.KernelIdeal.SageRegion

open Cert.KernelIdeal Cert.KernelIdeal.Gen Cert.KernelIdeal.SageBody
open Idealize.ShloMosaic Idealize.ShloMosaic.TcCoe Idealize.SL.Sem Idealize.ShloMosaic.ValueIdx
open Idealize.ShloMosaic.Pipeline (Dat Cfg Window)

/-! ## The three functions -/

/-- Entry (r, q) of the hidden layer, from the whole arrays. -/
def hRow (X N : S50000x64.Idx → EReal) (Ws Wn : S64x64.Idx → EReal) (b : S1x64.Idx → EReal) (r : Fin 50000) (q : Fin 64) : EReal :=
  max ((∑ k : Fin 64, X (ix2 r k) * Ws (ix2 k q) + ∑ k : Fin 64, N (ix2 r k) * Wn (ix2 k q)) + b (ix2 (0 : Fin 1) q)) 0

/-- The hidden layer as an array. -/
def hArr (X N : S50000x64.Idx → EReal) (Ws Wn : S64x64.Idx → EReal) (b : S1x64.Idx → EReal) : S50000x64.Idx → EReal :=
  fun i => hRow X N Ws Wn b ⟨(i 0).val, (i 0).isLt⟩ ⟨(i 1).val, (i 1).isLt⟩

/-- The hidden layer times a 64 x 64 matrix, as an array. -/
def hqArr (X N : S50000x64.Idx → EReal) (Ws Wn : S64x64.Idx → EReal) (b : S1x64.Idx → EReal) (Q : S64x64.Idx → EReal) : S50000x64.Idx → EReal :=
  fun i => ∑ k : Fin 64, hRow X N Ws Wn b ⟨(i 0).val, (i 0).isLt⟩ k * Q (ix2 k ⟨(i 1).val, (i 1).isLt⟩)

variable (V : (c : Dev nD) → (b : Ref sig .tc) → Buf (Elt Ideal) ((c : Thread nD τ).loc b))

theorem hz : (![0, 0] : Fin 2 → Nat) = fun _ => 0 := funext fun a => by fin_cases a <;> rfl

/-! ## Where the blocks sit -/

/-- The block-row of every row-blocked window is the point's own, at most 9; every other block index is 0. -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) ≤ 9 ∧ win0_7.index t (1 : Fin 2) = 0
    ∧ win0_8.index t (0 : Fin 2) = win0_7.index t (0 : Fin 2) ∧ win0_8.index t (1 : Fin 2) = 0
    ∧ win0_9.index t (0 : Fin 2) = win0_7.index t (0 : Fin 2) ∧ win0_9.index t (1 : Fin 2) = 0 :=
  (by decide +kernel : ∀ t : Fin grid0.N, _)

/-- Every block row is some point's. -/
theorem idx_onto : ∀ q0 : Fin 10, ∃ t : Fin cfg0.N, win0_7.index t (0 : Fin 2) = q0.val :=
  (by decide +kernel : ∀ q0 : Fin 10, ∃ t : Fin grid0.N, win0_7.index t (0 : Fin 2) = q0.val)

/-- The array row that row p of point t's blocks is. -/
def rowOf (t : Fin cfg0.N) (p : Fin 5000) : Fin 50000 :=
  ⟨win0_7.index t (0 : Fin 2) * 5000 + p.val, by
    have h := (idx_facts t).2.2.2.2.2.2.2.2.2.2.2.2.2.2.1
    have hp := p.isLt
    omega⟩

/-! ## The input blocks read through their windows -/

theorem blk0_at (c : Dev nD) (t : Fin cfg0.N) (p : Fin 5000) (k : Fin 64) :
    iblk0 V c 0 t (ix2 p k) = V c main_arg0 (ix2 (rowOf t p) k) := by
  obtain ⟨e0, e1, -⟩ := idx_facts t
  show V c main_arg0 (((cfg0.win 0).blk t).view.emb (ix2 p k)) = _
  refine congrArg (V c main_arg0) (funext fun a => Fin.ext ?_)
  match a with
  | ⟨0, _⟩ => show win0_0.index t (0 : Fin 2) * 5000 + 1 * p.val = win0_7.index t (0 : Fin 2) * 5000 + p.val; omega
  | ⟨1, _⟩ => show win0_0.index t (1 : Fin 2) * 64 + 1 * k.val = k.val; omega

theorem blk1_at (c : Dev nD) (t : Fin cfg0.N) (p : Fin 5000) (k : Fin 64) :
    iblk0 V c 1 t (ix2 p k) = V c main_v15 (ix2 (rowOf t p) k) := by
  obtain ⟨-, -, e0, e1, -⟩ := idx_facts t
  show V c main_v15 (((cfg0.win 1).blk t).view.emb (ix2 p k)) = _
  refine congrArg (V c main_v15) (funext fun a => Fin.ext ?_)
  match a with
  | ⟨0, _⟩ => show win0_1.index t (0 : Fin 2) * 5000 + 1 * p.val = win0_7.index t (0 : Fin 2) * 5000 + p.val; omega
  | ⟨1, _⟩ => show win0_1.index t (1 : Fin 2) * 64 + 1 * k.val = k.val; omega

theorem blk2_at (c : Dev nD) (t : Fin cfg0.N) (k q : Fin 64) :
    iblk0 V c 2 t (ix2 k q) = V c main_arg2 (ix2 k q) := by
  obtain ⟨-, -, -, -, e0, e1, -⟩ := idx_facts t
  show V c main_arg2 (((cfg0.win 2).blk t).view.emb (ix2 k q)) = _
  refine congrArg (V c main_arg2) (funext fun a => Fin.ext ?_)
  match a with
  | ⟨0, _⟩ => show win0_2.index t (0 : Fin 2) * 64 + 1 * k.val = k.val; omega
  | ⟨1, _⟩ => show win0_2.index t (1 : Fin 2) * 64 + 1 * q.val = q.val; omega

theorem blk3_at (c : Dev nD) (t : Fin cfg0.N) (k q : Fin 64) :
    iblk0 V c 3 t (ix2 k q) = V c main_arg3 (ix2 k q) := by
  obtain ⟨-, -, -, -, -, -, e0, e1, -⟩ := idx_facts t
  show V c main_arg3 (((cfg0.win 3).blk t).view.emb (ix2 k q)) = _
  refine congrArg (V c main_arg3) (funext fun a => Fin.ext ?_)
  match a with
  | ⟨0, _⟩ => show win0_3.index t (0 : Fin 2) * 64 + 1 * k.val = k.val; omega
  | ⟨1, _⟩ => show win0_3.index t (1 : Fin 2) * 64 + 1 * q.val = q.val; omega

theorem blk4_at (c : Dev nD) (t : Fin cfg0.N) (q : Fin 64) :
    iblk0 V c 4 t (ix2 (0 : Fin 1) q) = V c main_v18 (ix2 (0 : Fin 1) q) := by
  obtain ⟨-, -, -, -, -, -, -, -, e0, e1, -⟩ := idx_facts t
  show V c main_v18 (((cfg0.win 4).blk t).view.emb (ix2 (0 : Fin 1) q)) = _
  refine congrArg (V c main_v18) (funext fun a => Fin.ext ?_)
  match a with
  | ⟨0, _⟩ => show win0_4.index t (0 : Fin 2) * 1 + 1 * 0 = 0; omega
  | ⟨1, _⟩ => show win0_4.index t (1 : Fin 2) * 64 + 1 * q.val = q.val; omega

theorem blk5_at (c : Dev nD) (t : Fin cfg0.N) (k q : Fin 64) :
    iblk0 V c 5 t (ix2 k q) = V c main_v16 (ix2 k q) := by
  obtain ⟨-, -, -, -, -, -, -, -, -, -, e0, e1, -⟩ := idx_facts t
  show V c main_v16 (((cfg0.win 5).blk t).view.emb (ix2 k q)) = _
  refine congrArg (V c main_v16) (funext fun a => Fin.ext ?_)
  match a with
  | ⟨0, _⟩ => show win0_5.index t (0 : Fin 2) * 64 + 1 * k.val = k.val; omega
  | ⟨1, _⟩ => show win0_5.index t (1 : Fin 2) * 64 + 1 * q.val = q.val; omega

theorem blk6_at (c : Dev nD) (t : Fin cfg0.N) (k q : Fin 64) :
    iblk0 V c 6 t (ix2 k q) = V c main_v17 (ix2 k q) := by
  obtain ⟨-, -, -, -, -, -, -, -, -, -, -, -, e0, e1, -⟩ := idx_facts t
  show V c main_v17 (((cfg0.win 6).blk t).view.emb (ix2 k q)) = _
  refine congrArg (V c main_v17) (funext fun a => Fin.ext ?_)
  match a with
  | ⟨0, _⟩ => show win0_6.index t (0 : Fin 2) * 64 + 1 * k.val = k.val; omega
  | ⟨1, _⟩ => show win0_6.index t (1 : Fin 2) * 64 + 1 * q.val = q.val; omega

/-- The hidden block of point t at (p, q) is the hidden layer at (its array row, q). -/
theorem hAt_blocks (c : Dev nD) (t : Fin cfg0.N) (p : Fin 5000) (q : Fin 64) :
    hAt (iblk0 V c 0 t) (iblk0 V c 1 t) (iblk0 V c 2 t) (iblk0 V c 3 t) (iblk0 V c 4 t) p q
      = hRow (V c main_arg0) (V c main_v15) (V c main_arg2) (V c main_arg3) (V c main_v18) (rowOf t p) q := by
  unfold hAt hRow
  rw [blk4_at V c t q]
  refine congrArg (fun s => max (s + V c main_v18 (ix2 (0 : Fin 1) q)) 0) ?_
  refine congrArg₂ (· + ·) (Finset.sum_congr rfl fun k _ => ?_) (Finset.sum_congr rfl fun k _ => ?_)
  · rw [blk0_at V c t p k, blk2_at V c t k q]
  · rw [blk1_at V c t p k, blk3_at V c t k q]

/-! ## Output window 7: the hidden layer -/

theorem emb7 (t : Fin cfg0.N) (p : Fin 5000) (q : Fin 64) :
    ((cfg0.win 7).blk t).view.emb (ix2 p q) = ix2 (rowOf t p) q := by
  have e1 := (idx_facts t).2.2.2.2.2.2.2.2.2.2.2.2.2.2.2.1
  refine funext fun a => Fin.ext ?_
  match a with
  | ⟨0, _⟩ => show win0_7.index t (0 : Fin 2) * 5000 + 1 * p.val = win0_7.index t (0 : Fin 2) * 5000 + p.val; omega
  | ⟨1, _⟩ => show win0_7.index t (1 : Fin 2) * 64 + 1 * q.val = q.val; omega

theorem flushed7_eq (c : Dev nD) (t : Fin cfg0.N) :
    (dat0 V c).flushed 7 t = ((cfg0.win 7).blk t).view.read (Elt Ideal)
      (hArr (V c main_arg0) (V c main_v15) (V c main_arg2) (V c main_arg3) (V c main_v18)) := by
  show (cfg0.win 7).cut (grid0.coords t) ((dat0 V c).after 7 t) = _
  rw [after0_7]
  unfold out0_7
  rw [View.canon_unit_zero hz]
  simp only [View.ld_unit_zero (S := S5000x64) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = hArr (V c main_arg0) (V c main_v15) (V c main_arg2) (V c main_arg3) (V c main_v18) (((cfg0.win 7).blk t).view.emb (ix2 p q))
  rw [emb7 t p q]
  refine (pay1_at (iblk0 V c 0 t) (iblk0 V c 1 t) (iblk0 V c 2 t) (iblk0 V c 3 t) (iblk0 V c 4 t) p q).trans ?_
  exact hAt_blocks V c t p q

theorem mem_blk7 (t : Fin cfg0.N) (i : S50000x64.Idx) :
    i ∈ ((cfg0.win 7).blk t).view.set ↔ ∀ a : Fin 2, win0_7.index t a * S5000x64.size a ≤ (i a).val ∧ (i a).val < win0_7.index t a * S5000x64.size a + S5000x64.size a := by
  show i ∈ ((View.whole main_v19_0).slice (win0_7.rect t)).set ↔ _
  rw [View.set_slice_whole, Rect.mem_set_unit]
  exact Iff.rfl

theorem cover7 (i : S50000x64.Idx) :
    ∃ t : Fin cfg0.N, (cfg0.win 7).flush t = true ∧ i ∈ ((cfg0.win 7).blk t).view.set := by
  have hi0 : (i 0).val < 50000 := (i 0).isLt
  have hi1 : (i 1).val < 64 := (i 1).isLt
  obtain ⟨t, q0⟩ := idx_onto ⟨(i 0).val / 5000, by omega⟩
  have q0' : win0_7.index t (0 : Fin 2) = (i 0).val / 5000 := q0
  have q1 := (idx_facts t).2.2.2.2.2.2.2.2.2.2.2.2.2.2.2.1
  refine ⟨t, flush0_7 t, ?_⟩
  rw [mem_blk7]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 64 ≤ (i 1).val ∧ (i 1).val < win0_7.index t (1 : Fin 2) * 64 + 64; omega

/-- The first output array after the region: the hidden layer. -/
theorem arr7_eq (c : Dev nD) : (dat0 V c).arrAt 7 cfg0.N
    = hArr (V c main_arg0) (V c main_v15) (V c main_arg2) (V c main_arg3) (V c main_v18) :=
  (dat0 V c).arrAt_eq_of_cover 7 _ (fun t _ => flushed7_eq V c t) cover7

/-! ## Output window 8: the hidden layer times the first half of the edge weight -/

theorem emb8 (t : Fin cfg0.N) (p : Fin 5000) (q : Fin 64) :
    ((cfg0.win 8).blk t).view.emb (ix2 p q) = ix2 (rowOf t p) q := by
  obtain ⟨e00, e01, e10, e11, e20, e21, e30, e31, e40, e41, e50, e51, e60, e61, h7, e71, e80, e81, e90, e91⟩ := idx_facts t
  refine funext fun a => Fin.ext ?_
  match a with
  | ⟨0, _⟩ => show win0_8.index t (0 : Fin 2) * 5000 + 1 * p.val = win0_7.index t (0 : Fin 2) * 5000 + p.val; omega
  | ⟨1, _⟩ => show win0_8.index t (1 : Fin 2) * 64 + 1 * q.val = q.val; omega

theorem flushed8_eq (c : Dev nD) (t : Fin cfg0.N) :
    (dat0 V c).flushed 8 t = ((cfg0.win 8).blk t).view.read (Elt Ideal)
      (hqArr (V c main_arg0) (V c main_v15) (V c main_arg2) (V c main_arg3) (V c main_v18) (V c main_v16)) := by
  show (cfg0.win 8).cut (grid0.coords t) ((dat0 V c).after 8 t) = _
  rw [after0_8]
  unfold out0_8
  rw [View.canon_unit_zero hz]
  simp only [View.ld_unit_zero (S := S5000x64) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  show k0_pay3 (F := Ideal) (iblk0 V c 0 t) (iblk0 V c 1 t) (iblk0 V c 2 t) (iblk0 V c 3 t) (iblk0 V c 4 t) (iblk0 V c 5 t) (ix2 p q)
    = hqArr (V c main_arg0) (V c main_v15) (V c main_arg2) (V c main_arg3) (V c main_v18) (V c main_v16) (((cfg0.win 8).blk t).view.emb (ix2 p q))
  rw [emb8 t p q]
  refine (pay3_at (iblk0 V c 0 t) (iblk0 V c 1 t) (iblk0 V c 2 t) (iblk0 V c 3 t) (iblk0 V c 4 t) (iblk0 V c 5 t) p q).trans ?_
  show _ = ∑ k : Fin 64, hRow (V c main_arg0) (V c main_v15) (V c main_arg2) (V c main_arg3) (V c main_v18) (rowOf t p) k * V c main_v16 (ix2 k q)
  refine Finset.sum_congr rfl fun k _ => ?_
  rw [hAt_blocks V c t p k, blk5_at V c t k q]

theorem mem_blk8 (t : Fin cfg0.N) (i : S50000x64.Idx) :
    i ∈ ((cfg0.win 8).blk t).view.set ↔ ∀ a : Fin 2, win0_8.index t a * S5000x64.size a ≤ (i a).val ∧ (i a).val < win0_8.index t a * S5000x64.size a + S5000x64.size a := by
  show i ∈ ((View.whole main_v19_1).slice (win0_8.rect t)).set ↔ _
  rw [View.set_slice_whole, Rect.mem_set_unit]
  exact Iff.rfl

theorem cover8 (i : S50000x64.Idx) :
    ∃ t : Fin cfg0.N, (cfg0.win 8).flush t = true ∧ i ∈ ((cfg0.win 8).blk t).view.set := by
  have hi0 : (i 0).val < 50000 := (i 0).isLt
  have hi1 : (i 1).val < 64 := (i 1).isLt
  obtain ⟨t, q0⟩ := idx_onto ⟨(i 0).val / 5000, by omega⟩
  have q0' : win0_7.index t (0 : Fin 2) = (i 0).val / 5000 := q0
  obtain ⟨e00, e01, e10, e11, e20, e21, e30, e31, e40, e41, e50, e51, e60, e61, h7, e71, e80, e81, e90, e91⟩ := idx_facts t
  refine ⟨t, flush0_8 t, ?_⟩
  rw [mem_blk8]
  intro a
  match a with
  | ⟨0, _⟩ => show win0_8.index t (0 : Fin 2) * 5000 ≤ (i 0).val ∧ (i 0).val < win0_8.index t (0 : Fin 2) * 5000 + 5000; omega
  | ⟨1, _⟩ => show win0_8.index t (1 : Fin 2) * 64 ≤ (i 1).val ∧ (i 1).val < win0_8.index t (1 : Fin 2) * 64 + 64; omega

/-- The second output array after the region. -/
theorem arr8_eq (c : Dev nD) : (dat0 V c).arrAt 8 cfg0.N
    = hqArr (V c main_arg0) (V c main_v15) (V c main_arg2) (V c main_arg3) (V c main_v18) (V c main_v16) :=
  (dat0 V c).arrAt_eq_of_cover 8 _ (fun t _ => flushed8_eq V c t) cover8

/-! ## Output window 9: the hidden layer times the second half of the edge weight -/

theorem emb9 (t : Fin cfg0.N) (p : Fin 5000) (q : Fin 64) :
    ((cfg0.win 9).blk t).view.emb (ix2 p q) = ix2 (rowOf t p) q := by
  obtain ⟨e00, e01, e10, e11, e20, e21, e30, e31, e40, e41, e50, e51, e60, e61, h7, e71, e80, e81, e90, e91⟩ := idx_facts t
  refine funext fun a => Fin.ext ?_
  match a with
  | ⟨0, _⟩ => show win0_9.index t (0 : Fin 2) * 5000 + 1 * p.val = win0_7.index t (0 : Fin 2) * 5000 + p.val; omega
  | ⟨1, _⟩ => show win0_9.index t (1 : Fin 2) * 64 + 1 * q.val = q.val; omega

theorem flushed9_eq (c : Dev nD) (t : Fin cfg0.N) :
    (dat0 V c).flushed 9 t = ((cfg0.win 9).blk t).view.read (Elt Ideal)
      (hqArr (V c main_arg0) (V c main_v15) (V c main_arg2) (V c main_arg3) (V c main_v18) (V c main_v17)) := by
  show (cfg0.win 9).cut (grid0.coords t) ((dat0 V c).after 9 t) = _
  rw [after0_9]
  unfold out0_9
  rw [View.canon_unit_zero hz]
  simp only [View.ld_unit_zero (S := S5000x64) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  show k0_pay4 (F := Ideal) (iblk0 V c 0 t) (iblk0 V c 1 t) (iblk0 V c 2 t) (iblk0 V c 3 t) (iblk0 V c 4 t) (iblk0 V c 6 t) (ix2 p q)
    = hqArr (V c main_arg0) (V c main_v15) (V c main_arg2) (V c main_arg3) (V c main_v18) (V c main_v17) (((cfg0.win 9).blk t).view.emb (ix2 p q))
  rw [emb9 t p q, pay4_eq]
  refine (pay3_at (iblk0 V c 0 t) (iblk0 V c 1 t) (iblk0 V c 2 t) (iblk0 V c 3 t) (iblk0 V c 4 t) (iblk0 V c 6 t) p q).trans ?_
  show _ = ∑ k : Fin 64, hRow (V c main_arg0) (V c main_v15) (V c main_arg2) (V c main_arg3) (V c main_v18) (rowOf t p) k * V c main_v17 (ix2 k q)
  refine Finset.sum_congr rfl fun k _ => ?_
  rw [hAt_blocks V c t p k, blk6_at V c t k q]

theorem mem_blk9 (t : Fin cfg0.N) (i : S50000x64.Idx) :
    i ∈ ((cfg0.win 9).blk t).view.set ↔ ∀ a : Fin 2, win0_9.index t a * S5000x64.size a ≤ (i a).val ∧ (i a).val < win0_9.index t a * S5000x64.size a + S5000x64.size a := by
  show i ∈ ((View.whole main_v19_2).slice (win0_9.rect t)).set ↔ _
  rw [View.set_slice_whole, Rect.mem_set_unit]
  exact Iff.rfl

theorem cover9 (i : S50000x64.Idx) :
    ∃ t : Fin cfg0.N, (cfg0.win 9).flush t = true ∧ i ∈ ((cfg0.win 9).blk t).view.set := by
  have hi0 : (i 0).val < 50000 := (i 0).isLt
  have hi1 : (i 1).val < 64 := (i 1).isLt
  obtain ⟨t, q0⟩ := idx_onto ⟨(i 0).val / 5000, by omega⟩
  have q0' : win0_7.index t (0 : Fin 2) = (i 0).val / 5000 := q0
  obtain ⟨e00, e01, e10, e11, e20, e21, e30, e31, e40, e41, e50, e51, e60, e61, h7, e71, e80, e81, e90, e91⟩ := idx_facts t
  refine ⟨t, flush0_9 t, ?_⟩
  rw [mem_blk9]
  intro a
  match a with
  | ⟨0, _⟩ => show win0_9.index t (0 : Fin 2) * 5000 ≤ (i 0).val ∧ (i 0).val < win0_9.index t (0 : Fin 2) * 5000 + 5000; omega
  | ⟨1, _⟩ => show win0_9.index t (1 : Fin 2) * 64 ≤ (i 1).val ∧ (i 1).val < win0_9.index t (1 : Fin 2) * 64 + 64; omega

/-- The third output array after the region. -/
theorem arr9_eq (c : Dev nD) : (dat0 V c).arrAt 9 cfg0.N
    = hqArr (V c main_arg0) (V c main_v15) (V c main_arg2) (V c main_arg3) (V c main_v18) (V c main_v17) :=
  (dat0 V c).arrAt_eq_of_cover 9 _ (fun t _ => flushed9_eq V c t) cover9

end Cert.KernelIdeal.SageRegion

end
-- ==== Proof.TanhRegion.lean ====
/-
  The second kernel region, as one function of the array it reads.

  The region walks a 25000 x 128 array in five blocks of 5000 rows; at each block the body stores the
  hyperbolic tangent of what it loaded, element by element. Input and output blocks sit at the same place,
  block t covering rows 5000 t to 5000 t + 4999, so the five blocks tile the array and the array the region
  leaves is the hyperbolic tangent of the array it found, entry by entry.
-/
import proofs.«405117_j87857851007234_3_alg».proof.Proof.Gen.KernelIdeal.Frame
import Idealize.ShloMosaic.Lib.Pipeline.Value

set_option maxRecDepth 16384

noncomputable section

namespace Cert.KernelIdeal.TanhRegion

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The hyperbolic tangent of an array, entry by entry. -/
abbrev tanhAll (a : S25000x128.Idx → Elt F .f32) : S25000x128.Idx → Elt F .f32 := fun i => FloatOps.tanh (a i)

/-- The body's stored value is the hyperbolic tangent of its loaded block: the cast between equal shapes in
    front of it changes nothing. -/
theorem pay_eq (x0 : Vec F S5000x128 .f32) : k1_pay1 x0 = tanh x0 := by
  unfold k1_pay1
  rw [shapeCast_self]

/-- The two windows move together: at point t both sit at block row t, block column 0. -/
theorem idx_facts : ∀ t : Fin cfg1.N, win1_0.index t (0 : Fin 2) = win1_1.index t (0 : Fin 2)
    ∧ win1_0.index t (1 : Fin 2) = win1_1.index t (1 : Fin 2)
    ∧ win1_1.index t (0 : Fin 2) ≤ 4 ∧ win1_1.index t (1 : Fin 2) = 0 :=
  (by decide +kernel : ∀ t : Fin grid1.N, _)

/-- Every block row is some point's. -/
theorem idx_onto : ∀ q0 : Fin 5, ∃ t : Fin cfg1.N, win1_1.index t = ![q0.val, 0] :=
  (by decide +kernel : ∀ q0 : Fin 5, ∃ t : Fin grid1.N, win1_1.index t = ![q0.val, 0])

/-- What point t writes back is block t of the hyperbolic tangent of the array the region found. -/
theorem flushed_eq (c : Dev nD) (t : Fin cfg1.N) :
    (dat1 V c).flushed 1 t = ((cfg1.win 1).blk t).view.read (Elt F) (tanhAll (V c main_v38)) := by
  show (cfg1.win 1).cut (grid1.coords t) ((dat1 V c).after 1 t) = _
  rw [after1_1]
  unfold out1_1
  rw [View.canon_unit_zero hz]
  simp only [View.ld_unit_zero (S := S5000x128) hz]
  rw [pay_eq]
  obtain ⟨e0, e1, e2, e3⟩ := idx_facts t
  funext j
  show FloatOps.tanh (V c main_v38 (((cfg1.win 0).blk t).view.emb j)) = FloatOps.tanh (V c main_v38 (((cfg1.win 1).blk t).view.emb j))
  have h0 : ((cfg1.win 0).blk t).view.emb j = ((cfg1.win 1).blk t).view.emb j := by
    funext a; apply Fin.ext
    match a with
    | ⟨0, _⟩ => show win1_0.index t (0 : Fin 2) * 5000 + 1 * (j 0).val = win1_1.index t (0 : Fin 2) * 5000 + 1 * (j 0).val; omega
    | ⟨1, _⟩ => show win1_0.index t (1 : Fin 2) * 128 + 1 * (j 1).val = win1_1.index t (1 : Fin 2) * 128 + 1 * (j 1).val; omega
  rw [h0]

/-- An index is in point t's output block exactly when each coordinate is in the block's range on its axis. -/
theorem mem_blk (t : Fin cfg1.N) (i : S25000x128.Idx) :
    i ∈ ((cfg1.win 1).blk t).view.set ↔ ∀ a : Fin 2, win1_1.index t a * S5000x128.size a ≤ (i a).val ∧ (i a).val < win1_1.index t a * S5000x128.size a + S5000x128.size a := by
  show i ∈ ((View.whole main_v39).slice (win1_1.rect t)).set ↔ _
  rw [View.set_slice_whole, Rect.mem_set_unit]
  exact Iff.rfl

/-- The five output blocks cover the array: row r is in the block of point r / 5000. -/
theorem cover (i : S25000x128.Idx) :
    ∃ t : Fin cfg1.N, (cfg1.win 1).flush t = true ∧ i ∈ ((cfg1.win 1).blk t).view.set := by
  have hi0 : (i 0).val < 25000 := (i 0).isLt
  have hi1 : (i 1).val < 128 := (i 1).isLt
  obtain ⟨t, ht⟩ := idx_onto ⟨(i 0).val / 5000, by omega⟩
  have q0 : win1_1.index t (0 : Fin 2) = (i 0).val / 5000 := congrFun ht 0
  have q1 : win1_1.index t (1 : Fin 2) = 0 := congrFun ht 1
  refine ⟨t, flush1_1 t, ?_⟩
  rw [mem_blk]
  intro a
  match a with
  | ⟨0, _⟩ => show win1_1.index t (0 : Fin 2) * 5000 ≤ (i 0).val ∧ (i 0).val < win1_1.index t (0 : Fin 2) * 5000 + 5000; omega
  | ⟨1, _⟩ => show win1_1.index t (1 : Fin 2) * 128 ≤ (i 1).val ∧ (i 1).val < win1_1.index t (1 : Fin 2) * 128 + 128; omega

/-- The array the region leaves in its output buffer: the hyperbolic tangent of its input array. -/
theorem arr_eq (c : Dev nD) : (dat1 V c).arrAt 1 cfg1.N = tanhAll (V c main_v38) :=
  (dat1 V c).arrAt_eq_of_cover 1 (tanhAll (V c main_v38)) (fun t _ => flushed_eq V c t) cover

end Cert.KernelIdeal.TanhRegion

end
-- ==== Proof.KernelValue.lean ====
/-
  The kernel program's result as one function of its arguments.

  Reading the program in order: the neighbour means from the argument arrays; the first region's two
  product tables from the features, the means, the layer weights, the bias row and the two halves of the
  edge weight; the per-node mean of the per-edge squares from those tables, the index vectors and the edge
  bias, in its 128-column layout; the second region's hyperbolic tangent of that; and the 64-column layout
  of the result.
-/
import proofs.«405117_j87857851007234_3_alg».proof.Proof.HostReadA
import proofs.«405117_j87857851007234_3_alg».proof.Proof.HostReadB
import proofs.«405117_j87857851007234_3_alg».proof.Proof.SageRegion
import proofs.«405117_j87857851007234_3_alg».proof.Proof.TanhRegion

set_option maxRecDepth 16384

noncomputable section

namespace Cert.KernelIdeal.KernelValue

open Cert.KernelIdeal Cert.KernelIdeal.Gen Cert.KernelIdeal.KHost Cert.KernelIdeal.TakeRows
open Cert.KernelIdeal.SageRegion Cert.KernelIdeal.TanhRegion
open Idealize.ShloMosaic Idealize.ShloMosaic.TcCoe Idealize.SL.Sem

variable (m : (ℓ : Loc nD τ sig) → Buf (Elt Ideal) ℓ) (ρ : Dev nD → PrngReg)

/-- The two product tables the first region leaves, from the contents it was entered with. -/
theorem tables (c : Dev nD) :
    W4 m ρ c (Proc.devRef .tc main_v19_1)
      = hqArr (V3 m ρ c main_arg0) (V3 m ρ c main_v15) (V3 m ρ c main_arg2) (V3 m ρ c main_arg3) (V3 m ρ c main_v18) (V3 m ρ c main_v16)
    ∧ W4 m ρ c (Proc.devRef .tc main_v19_2)
      = hqArr (V3 m ρ c main_arg0) (V3 m ρ c main_v15) (V3 m ρ c main_arg2) (V3 m ρ c main_arg3) (V3 m ρ c main_v18) (V3 m ρ c main_v17) :=
  ⟨(W4_arr m ρ c 8).trans (SageRegion.arr8_eq (V3 m ρ) c), (W4_arr m ρ c 9).trans (SageRegion.arr9_eq (V3 m ρ) c)⟩

/-- What the second region leaves, from the contents it was entered with. -/
theorem tanhOut (c : Dev nD) : W8 m ρ c (Proc.devRef .tc main_v39) = tanhAll (W7 m ρ c (Proc.devRef .tc main_v38)) :=
  (W8_arr m ρ c 1).trans (TanhRegion.arr_eq (V7 m ρ) c)

/-- The result buffer at the end of the run, as a function of the argument arrays at launch. -/
theorem value (c : Dev nD) :
    W9 m ρ c (Proc.devRef .tc main_v40)
      = shapeCast S50000x64
          (tanhAll (edgeMeanWide (F := Ideal)
            (hqArr (m ((c : Thread nD τ).loc main_arg0))
              (neighbourMean (F := Ideal) (m ((c : Thread nD τ).loc main_arg0)) (srcOf (m ((c : Thread nD τ).loc main_arg1))) (dstOf (m ((c : Thread nD τ).loc main_arg1))))
              (m ((c : Thread nD τ).loc main_arg2)) (m ((c : Thread nD τ).loc main_arg3)) (biasRow (F := Ideal) (m ((c : Thread nD τ).loc main_arg4)))
              (topHalf (F := Ideal) (m ((c : Thread nD τ).loc main_arg5))))
            (hqArr (m ((c : Thread nD τ).loc main_arg0))
              (neighbourMean (F := Ideal) (m ((c : Thread nD τ).loc main_arg0)) (srcOf (m ((c : Thread nD τ).loc main_arg1))) (dstOf (m ((c : Thread nD τ).loc main_arg1))))
              (m ((c : Thread nD τ).loc main_arg2)) (m ((c : Thread nD τ).loc main_arg3)) (biasRow (F := Ideal) (m ((c : Thread nD τ).loc main_arg4)))
              (bottomHalf (F := Ideal) (m ((c : Thread nD τ).loc main_arg5))))
            (srcOf (m ((c : Thread nD τ).loc main_arg1))) (dstOf (m ((c : Thread nD τ).loc main_arg1)))
            (m ((c : Thread nD τ).loc main_arg6))))
          Facts₀.shapeCasts_S25000x128_S50000x64 := by
  obtain ⟨h1, h2⟩ := tables m ρ c
  have e0 : V3 m ρ c main_arg0 = m ((c : Thread nD τ).loc main_arg0) := HostReadA.W3_X m ρ c
  have e2 : V3 m ρ c main_arg2 = m ((c : Thread nD τ).loc main_arg2) := HostReadA.W3_Ws m ρ c
  have e3 : V3 m ρ c main_arg3 = m ((c : Thread nD τ).loc main_arg3) := HostReadA.W3_Wn m ρ c
  have e15 : V3 m ρ c main_v15 = neighbourMean (F := Ideal) (m ((c : Thread nD τ).loc main_arg0)) (srcOf (m ((c : Thread nD τ).loc main_arg1))) (dstOf (m ((c : Thread nD τ).loc main_arg1))) :=
    HostReadA.W3_mean m ρ c
  have e18 : V3 m ρ c main_v18 = biasRow (F := Ideal) (m ((c : Thread nD τ).loc main_arg4)) := HostReadA.W3_bias m ρ c
  have e16 : V3 m ρ c main_v16 = topHalf (F := Ideal) (m ((c : Thread nD τ).loc main_arg5)) := HostReadA.W3_top m ρ c
  have e17 : V3 m ρ c main_v17 = bottomHalf (F := Ideal) (m ((c : Thread nD τ).loc main_arg5)) := HostReadA.W3_bottom m ρ c
  rw [e0, e2, e3, e15, e18, e16] at h1
  rw [e0, e2, e3, e15, e18, e17] at h2
  rw [HostReadB.W9_out, tanhOut, HostReadB.W7_wide, h1, h2, HostReadB.W4_src, HostReadB.W4_dst, HostReadB.W4_Qb,
    HostReadA.W3_src, HostReadA.W3_dst, HostReadA.W3_Qb]

end Cert.KernelIdeal.KernelValue

end
-- ==== Proof.LibGatherScatterRows.lean ====
/-
  A row-gather and an accumulating row-scatter, read at an index.

  A table of N rows and C columns is read through a column of E integer index words: result row e is the
  table's row at the e-th word, the word read as a signed integer and clamped into [0, N - 1]. In the other
  direction E update rows are added into a table of N rows: update row e lands in the row its word names,
  the word read as a signed integer and NOT clamped, and is dropped when that row is outside [0, N). Both
  facts are stated for arbitrary extents, from the dimension numbers alone. The scatter of E scalars into a
  vector of N entries is the same with the column axis left out.
-/
import Idealize.ShloMosaic.PureOps.Ideal
import Idealize.ShloMosaic.PureOps.Ideal.Laws
import Idealize.ShloMosaic.Lib.ValueIdx
import Idealize.ShloMosaic.Lib.ValueIdxRank1

noncomputable section

open scoped BigOperators

namespace Cert.LibRows

open Idealize.ShloMosaic Idealize.ShloMosaic.ValueIdx

/-! ## Where an index word lands -/

/-- The entry of an axis of extent N that a 32-bit index word names when it is read as a signed integer
    and not clamped: the integer itself when it lies in [0, N), and nothing otherwise. -/
def landIx (N : Nat) (w : BitVec 32) : Option (Fin N) :=
  if h : 0 ≤ w.toInt ∧ w.toInt < N then some ⟨w.toInt.toNat, by omega⟩ else none

/-! ## Indices from coordinates are equal exactly when the coordinates are -/

/-- Two rank-2 indices built from coordinates are equal exactly when both coordinates are. -/
theorem ix2_inj {n0 n1 : Nat} (a a' : Fin n0) (b b' : Fin n1) : ix2 a b = ix2 a' b' ↔ a = a' ∧ b = b' := by
  constructor
  · intro h
    exact ⟨congrFun h 0, congrFun h 1⟩
  · rintro ⟨rfl, rfl⟩; rfl

/-- Two rank-1 indices built from a coordinate are equal exactly when the coordinates are. -/
theorem ix1_inj {n : Nat} (a a' : Fin n) : ix1 a = ix1 a' ↔ a = a' := by
  constructor
  · intro h
    exact congrFun h 0
  · rintro rfl; rfl

/-! ## The gather -/

/-- A row gather read at (e, j): the table's entry in column j of the row the e-th start index names, that
    index read as a signed integer and clamped into [0, N - 1]. -/
theorem gather_rows {α : Type} {N E C w : Nat} (hN : 0 < N) (d : GatherDims ⟨2, ![N, C]⟩ ⟨2, ![E, 1]⟩ ⟨2, ![E, C]⟩)
    (hoff : d.offsetDims = [1]) (hcoll : d.collapsedSliceDims = [0]) (hob : d.operandBatchingDims = []) (hsb : d.startIndicesBatchingDims = [])
    (hsim : d.startIndexMap = [0]) (hivd : d.indexVectorDim = 1)
    (x : (⟨2, ![N, C]⟩ : Shape).Idx → α) (idx : IVec ⟨2, ![E, 1]⟩ w) (e : Fin E) (j : Fin C) :
    Host.gather d x idx (ix2 e j) = x (ix2 ⟨min (idx (ix2 e 0)).toInt.toNat (N - 1), by omega⟩ j) := by
  have hsl : d.sliceSizes 0 = 1 := d.slice_collapsed 0 (by rw [hcoll]; exact List.mem_singleton.mpr rfl)
  obtain ⟨od, cs, ob, sb, sim, ivd, ss, wf⟩ := d
  simp only at hoff hcoll hob hsb hsim hivd hsl
  subst hoff hcoll hob hsb hsim hivd
  unfold Host.gather
  congr 1
  funext a
  apply Fin.ext
  match a with
  | ⟨0, _⟩ =>
    -- the row axis: collapsed, so only the clamped start index counts, and the slice there has one row
    show GatherDims.start _ _ _ _ + GatherDims.batchCoord _ _ _ + GatherDims.offCoord _ _ _ = min (idx (ix2 e 0)).toInt.toNat (N - 1)
    rw [GatherDims.batchCoord_eq_zero _ _ _ List.not_mem_nil,
        GatherDims.offCoord_eq_zero _ _ _ (fun h => ((GatherDims.mem_sKept _ _).mp h).1 (List.mem_singleton.mpr rfl))]
    simp only [Nat.add_zero]
    unfold GatherDims.start
    split
    · show min (idx _).toInt.toNat (N - ss 0) = _
      rw [hsl]
      congr 3
      congr 1
      -- the start index of result (e, j) is read at (e, 0)
      funext b
      apply Fin.ext
      match b with
      | ⟨0, _⟩ => rfl
      | ⟨1, _⟩ => rfl
    · next hn => exact absurd (List.mem_singleton.mpr rfl) hn
  | ⟨1, _⟩ =>
    -- the column axis: no start index, no batching; the offset coordinate is the result's column
    show 0 + 0 + j.val = j.val
    omega

/-! ## Where an update of the row scatter lands -/

section Rows
variable {N E C : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0]) (hivd : d.indexVectorDim = 1)
include huw hiw hsd hivd

/-- On the row axis the window of update (e, j') starts at the e-th index word, read signed. -/
theorem rows_start0 (idx : IVec ⟨2, ![E, 1]⟩ 32) (e : Fin E) (j' : Fin C) :
    d.start (ix2 e j') idx 0 = (idx (ix2 e 0)).toInt := by
  obtain ⟨uw, iw, sd, ivd, wf⟩ := d
  simp only at huw hiw hsd hivd
  subst huw hiw hsd hivd
  unfold ScatterDims.start
  split
  · congr 2
    funext b
    apply Fin.ext
    match b with
    | ⟨0, _⟩ => rfl
    | ⟨1, _⟩ => rfl
  · next hn => exact absurd (List.mem_singleton.mpr rfl) hn

/-- On the column axis the window starts at 0: no index word names that axis. -/
theorem rows_start1 (idx : IVec ⟨2, ![E, 1]⟩ 32) (e : Fin E) (j' : Fin C) :
    d.start (ix2 e j') idx 1 = 0 := by
  obtain ⟨uw, iw, sd, ivd, wf⟩ := d
  simp only at huw hiw hsd hivd
  subst huw hiw hsd hivd
  rfl

/-- The row axis is an inserted one: the window coordinate there is 0. -/
theorem rows_window0 (e : Fin E) (j' : Fin C) : d.window (ix2 e j') 0 = 0 := by
  obtain ⟨uw, iw, sd, ivd, wf⟩ := d
  simp only at huw hiw hsd hivd
  subst huw hiw hsd hivd
  rfl

/-- On the column axis the window coordinate is the update's column. -/
theorem rows_window1 (e : Fin E) (j' : Fin C) : d.window (ix2 e j') 1 = j'.val := by
  obtain ⟨uw, iw, sd, ivd, wf⟩ := d
  simp only at huw hiw hsd hivd
  subst huw hiw hsd hivd
  rfl

/-- Update (e, j') lands in column j' of the row its index word names, and nowhere when that row is
    outside [0, N). -/
theorem rows_resultIdx (idx : IVec ⟨2, ![E, 1]⟩ 32) (e : Fin E) (j' : Fin C) :
    d.resultIdx? (ix2 e j') idx = (landIx N (idx (ix2 e 0))).map (fun n => ix2 n j') := by
  have h0 := rows_start0 d huw hiw hsd hivd idx e j'
  have h1 := rows_start1 d huw hiw hsd hivd idx e j'
  have w0 := rows_window0 d huw hiw hsd hivd e j'
  have w1 := rows_window1 d huw hiw hsd hivd e j'
  unfold ScatterDims.resultIdx? landIx
  by_cases h : 0 ≤ (idx (ix2 e 0)).toInt ∧ (idx (ix2 e 0)).toInt < N
  · -- in range on both axes: the column always is
    have hall : ∀ a : Fin 2, 0 ≤ d.start (ix2 e j') idx a + d.window (ix2 e j') a
        ∧ d.start (ix2 e j') idx a + d.window (ix2 e j') a < (⟨2, ![N, C]⟩ : Shape).size a := by
      intro a
      match a with
      | ⟨0, _⟩ =>
        show 0 ≤ d.start (ix2 e j') idx 0 + d.window (ix2 e j') 0 ∧ d.start (ix2 e j') idx 0 + d.window (ix2 e j') 0 < (N : Int)
        rw [h0, w0]; omega
      | ⟨1, _⟩ =>
        show 0 ≤ d.start (ix2 e j') idx 1 + d.window (ix2 e j') 1 ∧ d.start (ix2 e j') idx 1 + d.window (ix2 e j') 1 < (C : Int)
        rw [h1, w1]; have := j'.isLt; omega
    rw [dif_pos hall, dif_pos h]
    simp only [Option.map_some]
    congr 1
    funext a
    apply Fin.ext
    match a with
    | ⟨0, _⟩ =>
      show (d.start (ix2 e j') idx 0 + d.window (ix2 e j') 0).toNat = (idx (ix2 e 0)).toInt.toNat
      rw [h0, w0]; simp
    | ⟨1, _⟩ =>
      show (d.start (ix2 e j') idx 1 + d.window (ix2 e j') 1).toNat = j'.val
      rw [h1, w1]; simp
  · -- out of range on the row axis: the update is dropped
    have hnall : ¬ ∀ a : Fin 2, 0 ≤ d.start (ix2 e j') idx a + d.window (ix2 e j') a
        ∧ d.start (ix2 e j') idx a + d.window (ix2 e j') a < (⟨2, ![N, C]⟩ : Shape).size a := by
      intro hall
      have := hall 0
      rw [h0, w0] at this
      apply h
      have h' : (0:Int) ≤ (idx (ix2 e 0)).toInt + ((0:Nat):Int) ∧ (idx (ix2 e 0)).toInt + ((0:Nat):Int) < (N : Int) := this
      omega
    rw [dif_neg hnall, dif_neg h]
    rfl

end Rows

/-! ## Where an update of the scalar scatter lands -/

section Vec
variable {N E : Nat} (d : ScatterDims ⟨1, ![N]⟩ ⟨2, ![E, 1]⟩ ⟨1, ![E]⟩)
    (huw : d.updateWindowDims = []) (hiw : d.insertedWindowDims = [0]) (hsd : d.scatterDimsToOperandDims = [0]) (hivd : d.indexVectorDim = 1)
include huw hiw hsd hivd

/-- The window of update e starts at the e-th index word, read signed. -/
theorem vec_start0 (idx : IVec ⟨2, ![E, 1]⟩ 32) (e : Fin E) :
    d.start (ix1 e) idx 0 = (idx (ix2 e 0)).toInt := by
  obtain ⟨uw, iw, sd, ivd, wf⟩ := d
  simp only at huw hiw hsd hivd
  subst huw hiw hsd hivd
  unfold ScatterDims.start
  split
  · congr 2
    funext b
    apply Fin.ext
    match b with
    | ⟨0, _⟩ => rfl
    | ⟨1, _⟩ => rfl
  · next hn => exact absurd (List.mem_singleton.mpr rfl) hn

/-- The one axis is an inserted one: the window coordinate there is 0. -/
theorem vec_window0 (e : Fin E) : d.window (ix1 e) 0 = 0 := by
  obtain ⟨uw, iw, sd, ivd, wf⟩ := d
  simp only at huw hiw hsd hivd
  subst huw hiw hsd hivd
  rfl

/-- Update e lands at the entry its index word names, and nowhere when that is outside [0, N). -/
theorem vec_resultIdx (idx : IVec ⟨2, ![E, 1]⟩ 32) (e : Fin E) :
    d.resultIdx? (ix1 e) idx = (landIx N (idx (ix2 e 0))).map ix1 := by
  have h0 := vec_start0 d huw hiw hsd hivd idx e
  have w0 := vec_window0 d huw hiw hsd hivd e
  unfold ScatterDims.resultIdx? landIx
  by_cases h : 0 ≤ (idx (ix2 e 0)).toInt ∧ (idx (ix2 e 0)).toInt < N
  · have hall : ∀ a : Fin 1, 0 ≤ d.start (ix1 e) idx a + d.window (ix1 e) a
        ∧ d.start (ix1 e) idx a + d.window (ix1 e) a < (⟨1, ![N]⟩ : Shape).size a := by
      intro a
      match a with
      | ⟨0, _⟩ =>
        show 0 ≤ d.start (ix1 e) idx 0 + d.window (ix1 e) 0 ∧ d.start (ix1 e) idx 0 + d.window (ix1 e) 0 < (N : Int)
        rw [h0, w0]; omega
    rw [dif_pos hall, dif_pos h]
    simp only [Option.map_some]
    congr 1
    funext a
    apply Fin.ext
    match a with
    | ⟨0, _⟩ =>
      show (d.start (ix1 e) idx 0 + d.window (ix1 e) 0).toNat = (idx (ix2 e 0)).toInt.toNat
      rw [h0, w0]; simp
  · have hnall : ¬ ∀ a : Fin 1, 0 ≤ d.start (ix1 e) idx a + d.window (ix1 e) a
        ∧ d.start (ix1 e) idx a + d.window (ix1 e) a < (⟨1, ![N]⟩ : Shape).size a := by
      intro hall
      have := hall 0
      rw [h0, w0] at this
      apply h
      have h' : (0:Int) ≤ (idx (ix2 e 0)).toInt + ((0:Nat):Int) ∧ (idx (ix2 e 0)).toInt + ((0:Nat):Int) < (N : Int) := this
      omega
    rw [dif_neg hnall, dif_neg h]
    rfl

end Vec

/-! ## The scatters read at an index -/

/-- An accumulating row scatter read at (n, j): the table's entry plus the sum, over the update rows e whose
    index word lands in row n (read signed, not clamped, dropped outside [0, N)), of the update's entry (e, j). -/
theorem scatterAdd_rows {N E C : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0]) (hivd : d.indexVectorDim = 1)
    (x : (⟨2, ![N, C]⟩ : Shape).Idx → EReal) (idx : IVec ⟨2, ![E, 1]⟩ 32) (upd : (⟨2, ![E, C]⟩ : Shape).Idx → EReal) (n : Fin N) (j : Fin C) :
    Ideal.hostScatterAdd d x idx upd (ix2 n j)
      = x (ix2 n j) + ∑ e ∈ Finset.univ.filter (fun e : Fin E => landIx N (idx (ix2 e 0)) = some n), upd (ix2 e j) := by
  -- update (e, j') lands at (n, j) exactly when its word lands in row n and j' = j
  have key : ∀ (e : Fin E) (j' : Fin C), d.resultIdx? (ix2 e j') idx = some (ix2 n j)
      ↔ (landIx N (idx (ix2 e 0)) = some n ∧ j' = j) := by
    intro e j'
    rw [rows_resultIdx d huw hiw hsd hivd idx e j']
    cases hL : landIx N (idx (ix2 e 0)) with
    | none => simp
    | some m => simp only [Option.map_some, Option.some.injEq, ix2_inj]
  unfold Ideal.hostScatterAdd
  congr 1
  -- the sum over the update indices as a double sum; for each e the inner sum keeps at most the term j' = j
  rw [Finset.sum_filter, sum_idx2, Finset.sum_filter]
  refine Finset.sum_congr rfl fun e _ => ?_
  by_cases hl : landIx N (idx (ix2 e 0)) = some n
  · rw [if_pos hl, Finset.sum_eq_single j]
    · rw [if_pos ((key e j).2 ⟨hl, rfl⟩)]
    · intro j' _ hne
      rw [if_neg (fun h => hne ((key e j').1 h).2)]
    · intro h; exact absurd (Finset.mem_univ _) h
  · rw [if_neg hl]
    apply Finset.sum_eq_zero
    intro j' _
    rw [if_neg (fun h => hl ((key e j').1 h).1)]

/-- An accumulating scatter of scalars into a vector, read at n: the vector's entry plus the sum of the
    updates e whose index word lands at n (read signed, not clamped, dropped outside [0, N)). -/
theorem scatterAdd_vec {N E : Nat} (d : ScatterDims ⟨1, ![N]⟩ ⟨2, ![E, 1]⟩ ⟨1, ![E]⟩)
    (huw : d.updateWindowDims = []) (hiw : d.insertedWindowDims = [0]) (hsd : d.scatterDimsToOperandDims = [0]) (hivd : d.indexVectorDim = 1)
    (x : (⟨1, ![N]⟩ : Shape).Idx → EReal) (idx : IVec ⟨2, ![E, 1]⟩ 32) (upd : (⟨1, ![E]⟩ : Shape).Idx → EReal) (n : Fin N) :
    Ideal.hostScatterAdd d x idx upd (ix1 n)
      = x (ix1 n) + ∑ e ∈ Finset.univ.filter (fun e : Fin E => landIx N (idx (ix2 e 0)) = some n), upd (ix1 e) := by
  have key : ∀ (e : Fin E), d.resultIdx? (ix1 e) idx = some (ix1 n)
      ↔ landIx N (idx (ix2 e 0)) = some n := by
    intro e
    rw [vec_resultIdx d huw hiw hsd hivd idx e]
    cases hL : landIx N (idx (ix2 e 0)) with
    | none => simp
    | some m => simp only [Option.map_some, Option.some.injEq, ix1_inj]
  unfold Ideal.hostScatterAdd
  congr 1
  -- a rank-1 index is its coordinate: re-index the sum over the updates by e
  rw [Finset.sum_filter, Finset.sum_filter, ← Equiv.sum_comp (idxEquiv1 (n := E)).symm]
  refine Finset.sum_congr rfl fun e _ => ?_
  show (if d.resultIdx? (ix1 e) idx = some (ix1 n) then upd (ix1 e) else 0) = _
  by_cases hl : landIx N (idx (ix2 e 0)) = some n
  · rw [if_pos hl, if_pos ((key e).2 hl)]
  · rw [if_neg hl, if_neg (fun h => hl ((key e).1 h))]

/-- The row scatter as the host's accumulating scatter states it over the extended reals. -/
theorem scatterAdd_rows' {φ : FTy} {N E C : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0]) (hivd : d.indexVectorDim = 1)
    (x : FVec Ideal ⟨2, ![N, C]⟩ φ) (idx : IVec ⟨2, ![E, 1]⟩ 32) (upd : FVec Ideal ⟨2, ![E, C]⟩ φ) (n : Fin N) (j : Fin C) :
    Host.scatterAdd (F := Ideal) d x idx upd (ix2 n j)
      = x (ix2 n j) + ∑ e ∈ Finset.univ.filter (fun e : Fin E => landIx N (idx (ix2 e 0)) = some n), upd (ix2 e j) :=
  scatterAdd_rows d huw hiw hsd hivd x idx upd n j

/-- The scalar scatter as the host's accumulating scatter states it over the extended reals. -/
theorem scatterAdd_vec' {φ : FTy} {N E : Nat} (d : ScatterDims ⟨1, ![N]⟩ ⟨2, ![E, 1]⟩ ⟨1, ![E]⟩)
    (huw : d.updateWindowDims = []) (hiw : d.insertedWindowDims = [0]) (hsd : d.scatterDimsToOperandDims = [0]) (hivd : d.indexVectorDim = 1)
    (x : FVec Ideal ⟨1, ![N]⟩ φ) (idx : IVec ⟨2, ![E, 1]⟩ 32) (upd : FVec Ideal ⟨1, ![E]⟩ φ) (n : Fin N) :
    Host.scatterAdd (F := Ideal) d x idx upd (ix1 n)
      = x (ix1 n) + ∑ e ∈ Finset.univ.filter (fun e : Fin E => landIx N (idx (ix2 e 0)) = some n), upd (ix1 e) :=
  scatterAdd_vec d huw hiw hsd hivd x idx upd n

end Cert.LibRows

end
-- ==== Proof.Laws.lean ====
/-
  Three facts about the extended reals that join the two programs.

  The reference raises an absolute value to the power 2 where the kernel multiplies a number by itself: on
  every extended real these agree, the infinities included, because an absolute value is never -∞ and
  (+∞)² = (-∞)·(-∞) = (+∞)·(+∞) = +∞. The reference contracts one axis of extent 128 where the kernel
  contracts two of extent 64 and adds: a finite sum splits at 64 in any commutative monoid, so no
  finiteness is needed.
-/
import Idealize.ShloMosaic.PureOps.Ideal
import Idealize.ShloMosaic.PureOps.Ideal.Laws
import Mathlib.Analysis.SpecialFunctions.Pow.Real
import Mathlib.Algebra.BigOperators.Fin

noncomputable section

open scoped BigOperators

namespace Cert.SageLaws

open Idealize.ShloMosaic

/-- The pattern of 2.0 denotes the real 2. -/
theorem ofBits_two : Ideal.ofBits .f32 0x40000000#32 = ((2 : ℝ) : EReal) := by
  simp [Ideal.ofBits, Ideal.ieee, -EReal.coe_mul]; norm_num

/-- The pattern of +0.0 denotes 0. -/
theorem ofBits_zero : Ideal.ofBits .f32 0x00000000#32 = 0 := Ideal.ofBits_zero_f32

/-- An absolute value squared by the power function is the number times itself, on every extended real. -/
theorem pow_abs_two (x : EReal) : Ideal.pow (max x (-x)) ((2 : ℝ) : EReal) = x * x := by
  induction x using EReal.rec with
  | bot =>
    have h : max (⊥ : EReal) (-⊥) = ⊤ := by simp
    rw [h]
    show (if (0 : EReal) < ((2 : ℝ) : EReal) then (⊤ : EReal) else _) = _
    rw [if_pos (by exact_mod_cast (by norm_num : (0 : ℝ) < 2))]
    simp
  | top =>
    have h : max (⊤ : EReal) (-⊤) = ⊤ := by simp
    rw [h]
    show (if (0 : EReal) < ((2 : ℝ) : EReal) then (⊤ : EReal) else _) = _
    rw [if_pos (by exact_mod_cast (by norm_num : (0 : ℝ) < 2))]
    simp
  | coe r =>
    have h : max (r : EReal) (-(r : EReal)) = ((|r| : ℝ) : EReal) := by
      rw [← EReal.coe_neg]
      rcases le_total r (-r) with hle | hle
      · rw [max_eq_right (EReal.coe_le_coe_iff.mpr hle), abs_of_nonpos (by linarith)]
      · rw [max_eq_left (EReal.coe_le_coe_iff.mpr hle), abs_of_nonneg (by linarith)]
    rw [h]
    show ((Real.rpow |r| 2 : ℝ) : EReal) = _
    rw [← EReal.coe_mul]
    congr 1
    show |r| ^ (2 : ℝ) = r * r
    rw [Real.rpow_two, sq_abs, sq]

/-- A sum over 128 terms is the sum of the first 64 plus the sum of the last 64. -/
theorem sum_split_128 {M : Type} [AddCommMonoid M] (f : Fin 128 → M) :
    ∑ k : Fin 128, f k = ∑ k : Fin 64, f ⟨k.val, by omega⟩ + ∑ k : Fin 64, f ⟨64 + k.val, by omega⟩ := by
  have h := Fin.sum_univ_add (a := 64) (b := 64) (fun i : Fin (64 + 64) => f ⟨i.val, i.isLt⟩)
  refine h.trans ?_
  rfl

end Cert.SageLaws

end
-- ==== Proof.Bridge.lean ====
/-
  The two programs compute one function of the arguments, when every edge endpoint is a node.

  Neighbour means. The kernel looks node rows up with a lookup that would replace out-of-range rows; with
  every index in [0, 50000) it replaces none, and what remains is, operation for operation, the reference's
  own gather, scatter-sums, count and quotient.

  Hidden layer. Entry (r, q) of both is max (x_r . W_self_q + mean_r . W_neigh_q + bias_q, 0).

  Per edge. The reference joins the source's and the destination's hidden rows into one row of 128 and
  contracts it with the 128 x 64 edge weight; the kernel contracts each hidden row with one 64-row half of
  that weight, once per node, and looks the products up per edge. A sum over 128 terms is the sum over the
  first 64 plus the sum over the last 64, and looking a row of products up is taking the products of the
  looked-up row, so the two sums are the same number t. The reference then takes |t| to the power 2, the
  kernel t times t: equal on every extended real.

  After that both average by source node with the same operations and take the hyperbolic tangent.
-/
import proofs.«405117_j87857851007234_3_alg».proof.Proof.Gen.ReferenceIdeal.Read
import proofs.«405117_j87857851007234_3_alg».proof.Proof.SageRegion
import proofs.«405117_j87857851007234_3_alg».proof.Proof.TanhRegion
import proofs.«405117_j87857851007234_3_alg».proof.Proof.KHost
import proofs.«405117_j87857851007234_3_alg».proof.Proof.LibGatherScatterRows
import proofs.«405117_j87857851007234_3_alg».proof.Proof.Laws
import Idealize.ShloMosaic.Lib.ValueLayout

set_option maxRecDepth 16384

noncomputable section

open scoped BigOperators

namespace Cert.Bridge

open Cert.KernelIdeal Cert.KernelIdeal.KHost Cert.KernelIdeal.TakeRows Cert.KernelIdeal.SageRegion
open Cert.ReferenceIdeal.Read
open Idealize.ShloMosaic Idealize.ShloMosaic.ValueIdx

variable (X : FVec Ideal S50000x64 .f32) (E : IVec S2x1000000 32) (Ws Wn : FVec Ideal S64x64 .f32)
  (B : FVec Ideal S64 .f32) (Qw : FVec Ideal S128x64 .f32) (Qb : FVec Ideal S64 .f32)

/-- Every edge endpoint is a node. -/
def InRange (E : IVec S2x1000000 32) : Prop := ∀ i : S2x1000000.Idx, 0 ≤ (E i).toInt ∧ (E i).toInt < 50000

theorem srcOf_range (hE : InRange E) (e : S1000000.Idx) : 0 ≤ (srcOf E e).toInt ∧ (srcOf E e).toInt < 50000 := by
  unfold srcOf shapeCast extractStridedSlice
  exact hE _

theorem dstOf_range (hE : InRange E) (e : S1000000.Idx) : 0 ≤ (dstOf E e).toInt ∧ (dstOf E e).toInt < 50000 := by
  unfold dstOf shapeCast extractStridedSlice
  exact hE _

/-! ## The neighbour means -/

theorem mean_eq (hE : InRange E) : neighbourMean X (srcOf E) (dstOf E) = val_main_v21 (F := Ideal) X E := by
  unfold neighbourMean
  rw [takeRows_eq X (srcOf E) (srcOf_range E hE)]
  rfl

/-! ## The hidden layer -/

theorem l22 (r : Fin 50000) (q k : Fin 64) : lidx_main_v22 (ix2 r q) k = ix2 r k :=
  funext fun a => by match a with | ⟨0, _⟩ => rfl | ⟨1, _⟩ => rfl
theorem r22 (r : Fin 50000) (q k : Fin 64) : ridx_main_v22 (ix2 r q) k = ix2 k q :=
  funext fun a => by match a with | ⟨0, _⟩ => rfl | ⟨1, _⟩ => rfl
theorem l23 (r : Fin 50000) (q k : Fin 64) : lidx_main_v23 (ix2 r q) k = ix2 r k :=
  funext fun a => by match a with | ⟨0, _⟩ => rfl | ⟨1, _⟩ => rfl
theorem r23 (r : Fin 50000) (q k : Fin 64) : ridx_main_v23 (ix2 r q) k = ix2 k q :=
  funext fun a => by match a with | ⟨0, _⟩ => rfl | ⟨1, _⟩ => rfl
theorem b26 (r : Fin 50000) (q : Fin 64) : idx_main_v25 (idx_main_v26 (ix2 r q)) = ix1 q :=
  funext fun a => by match a with | ⟨0, _⟩ => rfl

/-- Entry (r, q) of the reference's hidden layer. -/
theorem hidden_at (r : Fin 50000) (q : Fin 64) :
    val_main_v28 (F := Ideal) X E Ws Wn B (ix2 r q) = hRow X (val_main_v21 (F := Ideal) X E) Ws Wn (biasRow B) r q := by
  rw [val_main_v28_apply, val_main_v27_apply, val_main_v24_apply, val_main_v22_apply, val_main_v23_apply,
    val_main_v26_apply, val_main_v25_apply, val_main_call0_v0_apply, val_main_call0_cst_apply]
  unfold hRow biasRow
  rw [shapeCast_a_1a_apply]
  simp only [l22, r22, l23, r23, b26, Ideal.maximumf_def, Ideal.addf_def, Ideal.ofBits_def, Ideal.ofBits_zero_f32]

/-! ## The row lookups -/

/-- The node row that edge e's entry of an index column names, clamped into the table. -/
def rowAt (I : IVec S1000000x1 32) (e : Fin 1000000) : Fin 50000 :=
  ⟨min (I (ix2 e 0)).toInt.toNat (50000 - 1), by omega⟩

/-- The kernel program's gather at (e, q). -/
theorem gatherK_at (T : FVec Ideal S50000x64 .f32) (I : IVec S1000000x1 32) (e : Fin 1000000) (q : Fin 64) :
    Host.gather gather_S50000x64_S1000000x1_S1000000x64_1_0_n_n_0_1_164 T I (ix2 e q) = T (ix2 (rowAt I e) q) :=
  Cert.LibRows.gather_rows (by decide) gather_S50000x64_S1000000x1_S1000000x64_1_0_n_n_0_1_164 rfl rfl rfl rfl rfl rfl T I e q

/-- The reference program's gather at (e, q). -/
theorem gatherR_at (T : FVec Ideal S50000x64 .f32) (I : IVec S1000000x1 32) (e : Fin 1000000) (q : Fin 64) :
    Host.gather Cert.ReferenceIdeal.gather_S50000x64_S1000000x1_S1000000x64_1_0_n_n_0_1_164 T I (ix2 e q) = T (ix2 (rowAt I e) q) :=
  Cert.LibRows.gather_rows (by decide) Cert.ReferenceIdeal.gather_S50000x64_S1000000x1_S1000000x64_1_0_n_n_0_1_164 rfl rfl rfl rfl rfl rfl T I e q

/-- The reference's two index columns are the kernel's. -/
theorem ixS : val_main_v34 (F := Ideal) E = wrapIx (srcOf E) := rfl
theorem ixD : val_main_v41 (F := Ideal) E = wrapIx (dstOf E) := rfl

/-! ## The edge weight's halves and the bias, at an index -/

theorem top_at (k q : Fin 64) : topHalf Qw (ix2 k q) = Qw (ix2 (⟨k.val, by omega⟩ : Fin 128) q) := by
  unfold topHalf
  exact extractStridedSlice_apply ![0, 0] Qw Facts₀.slices_S128x64_S64x64_0_0 (ix2 k q) (ix2 (⟨k.val, by omega⟩ : Fin 128) q) (fun a => by
    match a with
    | ⟨0, _⟩ => show k.val = 0 + k.val; omega
    | ⟨1, _⟩ => show q.val = 0 + q.val; omega)

theorem bottom_at (k q : Fin 64) : bottomHalf Qw (ix2 k q) = Qw (ix2 (⟨64 + k.val, by omega⟩ : Fin 128) q) := by
  unfold bottomHalf
  exact extractStridedSlice_apply ![64, 0] Qw Facts₀.slices_S128x64_S64x64_64_0 (ix2 k q) (ix2 (⟨64 + k.val, by omega⟩ : Fin 128) q) (fun a => by
    match a with
    | ⟨0, _⟩ => show 64 + k.val = 64 + k.val; rfl
    | ⟨1, _⟩ => show q.val = 0 + q.val; omega)

theorem b46 (e : Fin 1000000) (q : Fin 64) : idx_main_v45 (idx_main_v46 (ix2 e q)) = ix1 q :=
  funext fun a => by match a with | ⟨0, _⟩ => rfl

/-- The bias spread over the edges, at (e, q). -/
theorem bias_at (e : Fin 1000000) (q : Fin 64) : val_main_v46 (F := Ideal) Qb (ix2 e q) = Qb (ix1 q) := by
  rw [val_main_v46_apply, val_main_v45_apply, b46]

/-! ## The joined row -/

theorem cat_left (e : Fin 1000000) (k : Fin 64) :
    val_main_v43 (F := Ideal) X E Ws Wn B (ix2 e (⟨k.val, by omega⟩ : Fin 128)) = val_main_v35 (F := Ideal) X E Ws Wn B (ix2 e k) := by
  unfold val_main_v43
  exact concatenate_pair_apply_left (1 : Fin 2) (val_main_v35 (F := Ideal) X E Ws Wn B) (val_main_v42 (F := Ideal) X E Ws Wn B) _
    (ix2 e (⟨k.val, by omega⟩ : Fin 128)) rfl (ix2 e k) (fun b => by
    match b with
    | ⟨0, _⟩ => rfl
    | ⟨1, _⟩ => rfl)

theorem cat_right (e : Fin 1000000) (k : Fin 64) :
    val_main_v43 (F := Ideal) X E Ws Wn B (ix2 e (⟨64 + k.val, by omega⟩ : Fin 128)) = val_main_v42 (F := Ideal) X E Ws Wn B (ix2 e k) := by
  unfold val_main_v43
  exact concatenate_pair_apply_right (1 : Fin 2) (val_main_v35 (F := Ideal) X E Ws Wn B) (val_main_v42 (F := Ideal) X E Ws Wn B) _
    (ix2 e (⟨64 + k.val, by omega⟩ : Fin 128)) rfl rfl (ix2 e k) (fun b hb => by
    match b with
    | ⟨0, _⟩ => rfl
    | ⟨1, _⟩ => exact absurd rfl hb) (by show k.val + 64 = 64 + k.val; omega)

theorem l44 (e : Fin 1000000) (q : Fin 64) (k : Fin 128) : lidx_main_v44 (ix2 e q) k = ix2 e k :=
  funext fun a => by match a with | ⟨0, _⟩ => rfl | ⟨1, _⟩ => rfl
theorem r44 (e : Fin 1000000) (q : Fin 64) (k : Fin 128) : ridx_main_v44 (ix2 e q) k = ix2 k q :=
  funext fun a => by match a with | ⟨0, _⟩ => rfl | ⟨1, _⟩ => rfl

/-! ## Per edge -/

/-- The number both programs square at edge e, column q. -/
def edgeSum (e : Fin 1000000) (q : Fin 64) : EReal :=
  (∑ k : Fin 64, hRow X (val_main_v21 (F := Ideal) X E) Ws Wn (biasRow B) (rowAt (wrapIx (srcOf E)) e) k * Qw (ix2 (⟨k.val, by omega⟩ : Fin 128) q)
    + ∑ k : Fin 64, hRow X (val_main_v21 (F := Ideal) X E) Ws Wn (biasRow B) (rowAt (wrapIx (dstOf E)) e) k * Qw (ix2 (⟨64 + k.val, by omega⟩ : Fin 128) q))
  + Qb (ix1 q)

/-- The reference's sum before the absolute value. -/
theorem ref_sum_at (e : Fin 1000000) (q : Fin 64) :
    val_main_v47 (F := Ideal) X E Ws Wn B Qw Qb (ix2 e q) = edgeSum X E Ws Wn B Qw Qb e q := by
  rw [val_main_v47_apply, val_main_v44_apply, bias_at]
  simp only [l44, r44, Ideal.addf_def]
  rw [Cert.SageLaws.sum_split_128]
  unfold edgeSum
  refine congrArg (· + Qb (ix1 q)) ?_
  refine congrArg₂ (· + ·) (Finset.sum_congr rfl fun k _ => ?_) (Finset.sum_congr rfl fun k _ => ?_)
  · show val_main_v43 (F := Ideal) X E Ws Wn B (ix2 e (⟨k.val, by omega⟩ : Fin 128)) * Qw (ix2 (⟨k.val, by omega⟩ : Fin 128) q) = _
    rw [cat_left]
    unfold val_main_v35
    rw [gatherR_at, ixS, hidden_at]
  · show val_main_v43 (F := Ideal) X E Ws Wn B (ix2 e (⟨64 + k.val, by omega⟩ : Fin 128)) * Qw (ix2 (⟨64 + k.val, by omega⟩ : Fin 128) q) = _
    rw [cat_right]
    unfold val_main_v42
    rw [gatherR_at, ixD, hidden_at]

/-- The bias spread over the edges as the kernel program spells it, at (e, q). -/
theorem biasK_at (e : Fin 1000000) (q : Fin 64) :
    broadcastInDim S1000000x64 ![0, 1] Facts₀.bcast_S1x64_S1000000x64_0_1 (broadcastInDim S1x64 ![1] Facts₀.bcast_S64_S1x64_1 Qb) (ix2 e q) = Qb (ix1 q) :=
  bias_at Qb e q

/-- The kernel's per-edge square at (e, q). -/
theorem ker_square_at (hE : InRange E) (e : Fin 1000000) (q : Fin 64) :
    edgeSquare (hqArr X (val_main_v21 (F := Ideal) X E) Ws Wn (biasRow B) (topHalf Qw))
      (hqArr X (val_main_v21 (F := Ideal) X E) Ws Wn (biasRow B) (bottomHalf Qw)) (srcOf E) (dstOf E) Qb (ix2 e q)
      = edgeSum X E Ws Wn B Qw Qb e q * edgeSum X E Ws Wn B Qw Qb e q := by
  have hs : addf (F := Ideal) (addf (takeRows (hqArr X (val_main_v21 (F := Ideal) X E) Ws Wn (biasRow B) (topHalf Qw)) (srcOf E))
               (takeRows (hqArr X (val_main_v21 (F := Ideal) X E) Ws Wn (biasRow B) (bottomHalf Qw)) (dstOf E)))
         (broadcastInDim S1000000x64 ![0, 1] Facts₀.bcast_S1x64_S1000000x64_0_1 (broadcastInDim S1x64 ![1] Facts₀.bcast_S64_S1x64_1 Qb)) (ix2 e q)
        = edgeSum X E Ws Wn B Qw Qb e q := by
    rw [ValueIdx.addf_apply, ValueIdx.addf_apply, biasK_at, takeRows_eq _ _ (srcOf_range E hE), takeRows_eq _ _ (dstOf_range E hE),
      gatherK_at, gatherK_at]
    unfold edgeSum
    refine congrArg (· + Qb (ix1 q)) ?_
    refine congrArg₂ (· + ·) ?_ ?_
    · show ∑ k : Fin 64, hRow X (val_main_v21 (F := Ideal) X E) Ws Wn (biasRow B) (rowAt (wrapIx (srcOf E)) e) k * topHalf Qw (ix2 k q) = _
      exact Finset.sum_congr rfl fun k _ => by rw [top_at]
    · show ∑ k : Fin 64, hRow X (val_main_v21 (F := Ideal) X E) Ws Wn (biasRow B) (rowAt (wrapIx (dstOf E)) e) k * bottomHalf Qw (ix2 k q) = _
      exact Finset.sum_congr rfl fun k _ => by rw [bottom_at]
  unfold edgeSquare squareOf
  rw [ValueIdx.mulf_apply, hs]

/-- The per-edge squares agree. -/
theorem edge_eq (hE : InRange E) :
    edgeSquare (hqArr X (val_main_v21 (F := Ideal) X E) Ws Wn (biasRow B) (topHalf Qw))
      (hqArr X (val_main_v21 (F := Ideal) X E) Ws Wn (biasRow B) (bottomHalf Qw)) (srcOf E) (dstOf E) Qb
      = val_main_v50 (F := Ideal) X E Ws Wn B Qw Qb := by
  funext j
  obtain ⟨e, q, rfl⟩ : ∃ (e : Fin 1000000) (q : Fin 64), j = ix2 e q := ⟨j 0, j 1, eq_ix2 j⟩
  rw [ker_square_at X E Ws Wn B Qw Qb hE e q, val_main_v50_apply, val_main_v48_apply, val_main_v49_apply, val_main_cst_8_apply, ref_sum_at]
  show _ = Ideal.pow (max (edgeSum X E Ws Wn B Qw Qb e q) (-(edgeSum X E Ws Wn B Qw Qb e q))) (Ideal.ofBits .f32 0x40000000#32)
  rw [Cert.SageLaws.ofBits_two, Cert.SageLaws.pow_abs_two]

/-! ## The whole result -/

/-- The per-node means of the per-edge squares agree. -/
theorem edgeMean_eq (hE : InRange E) :
    edgeMean (hqArr X (val_main_v21 (F := Ideal) X E) Ws Wn (biasRow B) (topHalf Qw))
      (hqArr X (val_main_v21 (F := Ideal) X E) Ws Wn (biasRow B) (bottomHalf Qw)) (srcOf E) (dstOf E) Qb
      = val_main_v61 (F := Ideal) X E Ws Wn B Qw Qb := by
  unfold edgeMean
  rw [edge_eq X E Ws Wn B Qw Qb hE]
  rfl

/-- The kernel program's result is the reference's. -/
theorem result_eq (hE : InRange E) :
    shapeCast S50000x64
      (Cert.KernelIdeal.TanhRegion.tanhAll (F := Ideal) (edgeMeanWide (F := Ideal)
        (hqArr X (neighbourMean X (srcOf E) (dstOf E)) Ws Wn (biasRow B) (topHalf Qw))
        (hqArr X (neighbourMean X (srcOf E) (dstOf E)) Ws Wn (biasRow B) (bottomHalf Qw))
        (srcOf E) (dstOf E) Qb))
      Facts₀.shapeCasts_S25000x128_S50000x64
      = val_main_v62 (F := Ideal) X E Ws Wn B Qw Qb := by
  rw [mean_eq X E hE]
  unfold edgeMeanWide
  -- the hyperbolic tangent, entry by entry, commutes with a change of layout; the two layout changes undo each other
  have hcomm : ∀ (Y : FVec Ideal S50000x64 .f32),
      Cert.KernelIdeal.TanhRegion.tanhAll (F := Ideal) (shapeCast S25000x128 Y Facts₀.shapeCasts_S50000x64_S25000x128)
        = shapeCast S25000x128 (fun i => FloatOps.tanh (F := Ideal) (Y i) : FVec Ideal S50000x64 .f32) Facts₀.shapeCasts_S50000x64_S25000x128 :=
    fun _ => rfl
  rw [hcomm, shapeCast_shapeCast, edgeMean_eq X E Ws Wn B Qw Qb hE]
  rfl

end Cert.Bridge

end
-- ==== Proof.PreRange.lean ====
/-
  What the precondition says of the edge list.

  The precondition is a conjunction of "all" tests: six that every float input is finite, and two on the
  edge list, that every entry is at least 0 and that every entry is below 50000. When the whole
  conjunction is 1, each of its last two conjuncts is 1, so the comparison holds at every entry: as a
  signed integer every edge endpoint lies in [0, 50000).
-/
import proofs.«405117_j87857851007234_3_alg».proof.Proof.Gen.Pre_finite_inputs
import Idealize.ShloMosaic.Lib.ReduceAll
import Idealize.ShloMosaic.Lib.ValueIdx

noncomputable section

namespace Cert.PreRange

open Cert.Pre_finite_inputs
open Idealize.ShloMosaic

variable {F : FTy → Type} [FloatOps F]

instance : Subsingleton S_.Idx := ⟨fun a b => funext fun d => d.elim0⟩

/-- Under the precondition every entry of the edge list, read as a signed integer, lies in [0, 50000). -/
theorem range_of_pre (a0 : FVec F S50000x64 .f32) (E : IVec S2x1000000 32) (a2 a3 : FVec F S64x64 .f32) (a4 : FVec F S64 .f32)
    (a5 : FVec F S128x64 .f32) (a6 : FVec F S64 .f32)
    (h : fn (F := F) a0 E a2 a3 a4 a5 a6 = fun _ => 1#1) (i : S2x1000000.Idx) :
    0 ≤ (E i).toInt ∧ (E i).toInt < 50000 := by
  have h0 := congrFun h ValueIdx.ix0
  dsimp only [fn, fn_part1, fn_part2] at h0
  obtain ⟨h32, h35⟩ := IntOp.andi_eq_one.1 h0
  obtain ⟨-, h31⟩ := IntOp.andi_eq_one.1 h32
  have hge := Host.reduce_andi_all _ _ _ _ _ h31 i
  have hlt := Host.reduce_andi_all _ _ _ _ _ h35 i
  have hge' : IntOp.cmpi .sge (E i) 0#32 = 1#1 := hge
  have hlt' : IntOp.cmpi .slt (E i) 50000#32 = 1#1 := hlt
  have g := IntOp.cmpi_sge.1 hge'
  have l := IntOp.cmpi_slt.1 hlt'
  have z0 : (0#32 : BitVec 32).toInt = 0 := by decide
  have z1 : (50000#32 : BitVec 32).toInt = 50000 := by decide
  omega

end Cert.PreRange

end
-- ==== Proof.lean ====
/- A graph layer with mean aggregation, an edge scorer and a second mean, on 50000 nodes, 1000000 edges and
   64 features, against its plain reference; both read over the extended reals.

   Both programs average each node's in-neighbours' features, form the hidden layer
       H = max (X W_self + mean W_neigh + bias, 0),
   score every edge by the square of  [H_src, H_dst] Q + q,  average the scores by source node and take the
   hyperbolic tangent. They differ in three places. (1) The kernel program's row lookups replace a row
   whose index is out of range by a fill value where the reference's lookup clamps; the statement's
   precondition asks every edge endpoint to be a node, and then no row is replaced. (2) The kernel program
   pushes the edge weight Q through the lookup: it multiplies H by the two 64-row halves of Q once per node
   and looks the products up per edge, where the reference joins the two looked-up rows and contracts the
   128 columns at once: the same sum, split at 64. (3) It squares by a product where the reference raises
   the absolute value to the power 2: the same number on every extended real. Nothing uses finiteness of
   the float inputs.

   The three frames: the two kernel programs' are the generated frame certificates; the reference's is its
   generated run with the result dropped. The idealization rewrote nothing, so there is nothing to preserve. -/
import proofs.«405117_j87857851007234_3_alg».proof.Defs
import proofs.«405117_j87857851007234_3_alg».proof.Proof.Gen.Kernel
import proofs.«405117_j87857851007234_3_alg».proof.Proof.Gen.Kernel.Skeleton
import proofs.«405117_j87857851007234_3_alg».proof.Proof.Gen.Kernel.Launch
import proofs.«405117_j87857851007234_3_alg».proof.Proof.Gen.Kernel.Points
import proofs.«405117_j87857851007234_3_alg».proof.Proof.Gen.Kernel.Frame
import proofs.«405117_j87857851007234_3_alg».proof.Proof.Gen.KernelIdeal
import proofs.«405117_j87857851007234_3_alg».proof.Proof.Gen.KernelIdeal.Skeleton
import proofs.«405117_j87857851007234_3_alg».proof.Proof.Gen.KernelIdeal.Launch
import proofs.«405117_j87857851007234_3_alg».proof.Proof.Gen.KernelIdeal.Points
import proofs.«405117_j87857851007234_3_alg».proof.Proof.Gen.KernelIdeal.Frame
import proofs.«405117_j87857851007234_3_alg».proof.Proof.Gen.ReferenceIdeal
import proofs.«405117_j87857851007234_3_alg».proof.Proof.Gen.Pre_finite_inputs
import proofs.«405117_j87857851007234_3_alg».proof.Proof.Gen.ReferenceIdeal.Run
import proofs.«405117_j87857851007234_3_alg».proof.Proof.Gen.ReferenceIdeal.Read
import proofs.«405117_j87857851007234_3_alg».proof.Proof.ValueRun
import proofs.«405117_j87857851007234_3_alg».proof.Proof.KernelValue
import proofs.«405117_j87857851007234_3_alg».proof.Proof.Bridge
import proofs.«405117_j87857851007234_3_alg».proof.Proof.PreRange
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs run, and the reference's result is the kernel
    program's: the kernel program's result buffer ends at one function of the arguments (the run with the
    result named, read back region by region), the reference's at its own, and under the precondition's
    index range the two functions are equal. -/
theorem algebraic : Cert.algebraic_KernelIdeal_ReferenceIdeal := by
  intro m ρ m' ρ' hpre hagree
  refine ⟨fun c => Cert.KernelIdeal.Gen.W9 m ρ c (Proc.devRef .tc Cert.KernelIdeal.main_v40),
    Cert.KernelIdeal.ValueRun.run_value m ρ, ?_⟩
  refine (θ_run Cert.ReferenceIdeal.defs _ _).mono (fun _ h c => ⟨(h c).1.trans ?_, (h c).2⟩)
    (Cert.ReferenceIdeal.Value.run (F := Ideal) m' ρ')
  have hE : Cert.Bridge.InRange (m ((c.tc : Thread Cert.KernelIdeal.nD Cert.KernelIdeal.τ).loc Cert.KernelIdeal.main_arg1)) :=
    fun i => Cert.PreRange.range_of_pre _ _ _ _ _ _ _ (hpre c) i
  rw [Cert.ReferenceIdeal.Read.val_main_v62_eq, (hagree c).1, (hagree c).2.1, (hagree c).2.2.1, (hagree c).2.2.2.1,
    (hagree c).2.2.2.2.1, (hagree c).2.2.2.2.2.1, (hagree c).2.2.2.2.2.2]
  exact ((Cert.KernelIdeal.KernelValue.value m ρ c).trans (Cert.Bridge.result_eq _ _ _ _ _ _ _ hE)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
